-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S2x128 : Shape := ⟨2, ![2, 128]⟩
abbrev S2 : Shape := ⟨1, ![2]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_

variable [Facts]

def fn {F : FTy → Type} [FloatOps F] (main_arg0 : FVec F S1000000x128 .f32) (main_arg1 : FVec F S2x128 .f32) (main_arg2 : FVec F S2 .f32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S2x128 .f32 := Host.absf main_arg1
  let main_cst_0 : FVec F S_ .f32 := constant S_ .f32 0x7F800000#32
  let main_v5 : FVec F S2x128 .f32 := broadcastInDim S2x128 ![] bcast_S_S2x128 main_cst_0
  let main_v6 : IVec S2x128 1 := cmpf .olt main_v4 main_v5
  let main_c_1 : IVec S_ 1 := constantI S_ 1 1#1
  let main_v7 : IVec S_ 1 := (fun x v => Host.reduce IntOp.andi x v reducesTo_S2x128_S_d0_1 h_S_) main_v6 main_c_1
  let main_v8 : IVec S_ 1 := andi main_v3 main_v7
  let main_v9 : FVec F S2 .f32 := Host.absf main_arg2
  let main_cst_2 : FVec F S_ .f32 := constant S_ .f32 0x7F800000#32
  let main_v10 : FVec F S2 .f32 := broadcastInDim S2 ![] bcast_S_S2 main_cst_2
  let main_v11 : IVec S2 1 := cmpf .olt main_v9 main_v10
  let main_c_3 : IVec S_ 1 := constantI S_ 1 1#1
  let main_v12 : IVec S_ 1 := (fun x v => Host.reduce IntOp.andi x v reducesTo_S2_S_d0 h_S_) main_v11 main_c_3
  let main_v13 : IVec S_ 1 := andi main_v8 main_v12
  main_v13
-- ==== Kernel.lean ====
abbrev S1000000x128 : Shape := ⟨2, ![1000000, 128]⟩
abbrev S2x128 : Shape := ⟨2, ![2, 128]⟩
abbrev S2 : Shape := ⟨1, ![2]⟩
abbrev S1x2 : Shape := ⟨2, ![1, 2]⟩
abbrev S1000000x2 : Shape := ⟨2, ![1000000, 2]⟩
abbrev S8000x128 : Shape := ⟨2, ![8000, 128]⟩
abbrev S8000x2 : Shape := ⟨2, ![8000, 2]⟩
abbrev S128x2 : Shape := ⟨2, ![128, 2]⟩
abbrev S4000x2 : Shape := ⟨2, ![4000, 2]⟩
abbrev S8x2 : Shape := ⟨2, ![8, 2]⟩
abbrev S3999x2 : Shape := ⟨2, ![3999, 2]⟩
abbrev S3998x2 : Shape := ⟨2, ![3998, 2]⟩
abbrev S2x2 : Shape := ⟨2, ![2, 2]⟩
abbrev S4000x1 : Shape := ⟨2, ![4000, 1]⟩

abbrev nBuf : Space → Nat
  | .hbm => 6
  | .vmem => 12
  | .smem => 0
  | _ => 0

abbrev bufTy : (tb : Table) → Fin (tcTables nBuf tb) → BufTy
  | .hbm, ⟨0, _⟩ => ⟨S1000000x128, .f32⟩
  | .hbm, ⟨1, _⟩ => ⟨S2x128, .f32⟩
  | .hbm, ⟨2, _⟩ => ⟨S2, .f32⟩
  | .hbm, ⟨3, _⟩ => ⟨S1x2, .f32⟩
  | .hbm, ⟨4, _⟩ => ⟨S1000000x2, .f32⟩
  | .hbm, ⟨5, _⟩ => ⟨S1000000x2, .f32⟩
  | .local _ .vmem, ⟨0, _⟩ => ⟨S8000x128, .f32⟩
  | .local _ .vmem, ⟨1, _⟩ => ⟨S8000x128, .f32⟩
  | .local _ .vmem, ⟨2, _⟩ => ⟨S2x128, .f32⟩
  | .local _ .vmem, ⟨3, _⟩ => ⟨S1x2, .f32⟩
  | .local _ .vmem, ⟨4, _⟩ => ⟨S8000x2, .f32⟩
  | .local _ .vmem, ⟨5, _⟩ => ⟨S8000x2, .f32⟩
  | .local _ .vmem, ⟨6, _⟩ => ⟨S4000x2, .f32⟩
  | .local _ .vmem, ⟨7, _⟩ => ⟨S4000x2, .f32⟩
  | .local _ .vmem, ⟨8, _⟩ => ⟨S8x2, .f32⟩
  | .local _ .vmem, ⟨9, _⟩ => ⟨S8x2, .f32⟩
  | .local _ .vmem, ⟨10, _⟩ => ⟨S4000x2, .f32⟩
  | .local _ .vmem, ⟨11, _⟩ => ⟨S4000x2, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c1_i32 : BitVec 32 := 1#32
  let v0 : BitVec 32 := Scalar.addi arg0 c1_i32
  let c250_i32 : BitVec 32 := 250#32
  let c0_i32 : BitVec 32 := 0#32
  let v1 : BitVec 1 := Scalar.cmpi .eq c250_i32 c0_i32
  let c1_i32_0 : BitVec 32 := 1#32
  let v2 : BitVec 32 := Scalar.select v1 c1_i32_0 c250_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c500_i32 : BitVec 32 := 500#32
  let v11 : BitVec 32 := Scalar.muli v10 c500_i32
  let c0_i32_4 : BitVec 32 := 0#32
  let c0_i32_5 : BitVec 32 := 0#32
  ![v11.toNat, c0_i32_4.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S2_S1x2 : S2.ShapeCasts S1x2
  inb_S8000x128_S8000x128_0_0 : ∀ a, (![0, 0] : Fin 2 → Nat) a + S8000x128.size a ≤ S8000x128.size a
  h_S8000x128 : 0 < S8000x128.numel
  bitsLt_bf16_f32 : FTy.bits .bf16 < FTy.bits .f32
  inb_S2x128_S2x128_0_0 : ∀ a, (![0, 0] : Fin 2 → Nat) a + S2x128.size a ≤ S2x128.size a
  h_S2x128 : 0 < S2x128.numel
  transposes_S2x128_p1_0_S128x2 : S2x128.Transposes [1, 0] S128x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S8000x2 : S1x2.Broadcasts S8000x2
  inb_S8000x2_S8000x2_0_0 : ∀ a, (![0, 0] : Fin 2 → Nat) a + S8000x2.size a ≤ S8000x2.size a
  h_S8000x2 : 0 < S8000x2.numel
  inb_S4000x2_S4000x2_0_0 : ∀ a, (![0, 0] : Fin 2 → Nat) a + S4000x2.size a ≤ S4000x2.size a
  h_S4000x2 : 0 < S4000x2.numel
  shapeCasts_S4000x2_S4000x2 : S4000x2.ShapeCasts S4000x2
  inb_S8x2_S8x2_0_0 : ∀ a, (![0, 0] : Fin 2 → Nat) a + S8x2.size a ≤ S8x2.size a
  h_S8x2 : 0 < S8x2.numel
  shapeCasts_S8x2_S8x2 : S8x2.ShapeCasts S8x2
  slices_S4000x2_o1_0_S3999x2 : S4000x2.Slices ![1, 0] S3999x2
  slices_S8x2_o0_0_S1x2 : S8x2.Slices ![0, 0] S1x2
  concatenates_S3999x2_S1x2_S4000x2_d0 : Shape.Concatenates [S3999x2, S1x2] S4000x2 0
  slices_S4000x2_o2_0_S3998x2 : S4000x2.Slices ![2, 0] S3998x2
  slices_S8x2_o0_0_S2x2 : S8x2.Slices ![0, 0] S2x2
  concatenates_S3998x2_S2x2_S4000x2_d0 : Shape.Concatenates [S3998x2, S2x2] S4000x2 0
  slices_S4000x2_o0_0_S4000x1 : S4000x2.Slices ![0, 0] S4000x1
  slices_S4000x2_o0_1_S4000x1 : S4000x2.Slices ![0, 1] S4000x1
  broadcasts_S4000x1_S4000x2 : S4000x1.Broadcasts S4000x2
  dot_S8000x128_S128x2_S8000x2_1_0_0_1_n_n_wf : DotDims.WF S8000x128 S128x2 S8000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S1000000x128.size a
  hwx0_0 : ∀ i : grid0.Coords, EltTy.bits .f32 = 32 ∨ (Rect.block (s := S1000000x128) S8000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x128.size a ≤ S2x128.size a
  hwx0_1 : ∀ i : grid0.Coords, EltTy.bits .f32 = 32 ∨ (Rect.block (s := S2x128) S2x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2.size a ≤ S1x2.size a
  hwx0_2 : ∀ i : grid0.Coords, EltTy.bits .f32 = 32 ∨ (Rect.block (s := S1x2) S1x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x2.size a ≤ S1000000x2.size a
  hwx0_3 : ∀ i : grid0.Coords, EltTy.bits .f32 = 32 ∨ (Rect.block (s := S1000000x2) S8000x2.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x2.size a ≤ S1000000x2.size a
  hwx1_0 : ∀ i : grid1.Coords, EltTy.bits .f32 = 32 ∨ (Rect.block (s := S1000000x2) S4000x2.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x2.size a ≤ S1000000x2.size a
  hwx1_1 : ∀ i : grid1.Coords, EltTy.bits .f32 = 32 ∨ (Rect.block (s := S1000000x2) S8x2.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x2.size a ≤ S1000000x2.size a
  hwx1_2 : ∀ i : grid1.Coords, EltTy.bits .f32 = 32 ∨ (Rect.block (s := S1000000x2) S4000x2.size (cc1_transform_2 i) (hinb1_2 i)).WholeWords (EltTy.packing .f32)

variable [Facts₀]

def dot_S8000x128_S128x2_S8000x2_1_0_0_1_n_n : DotDims S8000x128 S128x2 S8000x2 where
  lhsContracting := [1]
  rhsContracting := [0]
  lhsNonContracting := [0]
  rhsNonContracting := [1]
  lhsBatch := []
  rhsBatch := []
  wf := dot_S8000x128_S128x2_S8000x2_1_0_0_1_n_n_wf

abbrev win0_0 : Pipeline.Window sig grid0 :=
  Pipeline.Window.ofSpec (Memref.whole main_arg0) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8000x2.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S4000x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S8x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S4000x2.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S1000000x128 : Shape := ⟨2, ![1000000, 128]⟩
abbrev S2x128 : Shape := ⟨2, ![2, 128]⟩
abbrev S2 : Shape := ⟨1, ![2]⟩
abbrev S128x2 : Shape := ⟨2, ![128, 2]⟩
abbrev S1000000x2 : Shape := ⟨2, ![1000000, 2]⟩
abbrev S1x2 : Shape := ⟨2, ![1, 2]⟩
abbrev S1000000x1 : Shape := ⟨2, ![1000000, 1]⟩
abbrev S999999x2 : Shape := ⟨2, ![999999, 2]⟩
abbrev S999998x2 : Shape := ⟨2, ![999998, 2]⟩
abbrev S2x2 : Shape := ⟨2, ![2, 2]⟩

abbrev nBuf : Space → Nat
  | .hbm => 21
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S2x128, .f32⟩
  | .hbm, ⟨2, _⟩ => ⟨S2, .f32⟩
  | .hbm, ⟨3, _⟩ => ⟨S128x2, .f32⟩
  | .hbm, ⟨4, _⟩ => ⟨S1000000x2, .f32⟩
  | .hbm, ⟨5, _⟩ => ⟨S1x2, .f32⟩
  | .hbm, ⟨6, _⟩ => ⟨S1000000x2, .f32⟩
  | .hbm, ⟨7, _⟩ => ⟨S1000000x2, .f32⟩
  | .hbm, ⟨8, _⟩ => ⟨S1000000x1, .f32⟩
  | .hbm, ⟨9, _⟩ => ⟨S999999x2, .f32⟩
  | .hbm, ⟨10, _⟩ => ⟨S1x2, .f32⟩
  | .hbm, ⟨11, _⟩ => ⟨S1000000x2, .f32⟩
  | .hbm, ⟨12, _⟩ => ⟨S1000000x2, .f32⟩
  | .hbm, ⟨13, _⟩ => ⟨S1000000x2, .f32⟩
  | .hbm, ⟨14, _⟩ => ⟨S1000000x1, .f32⟩
  | .hbm, ⟨15, _⟩ => ⟨S999998x2, .f32⟩
  | .hbm, ⟨16, _⟩ => ⟨S2x2, .f32⟩
  | .hbm, ⟨17, _⟩ => ⟨S1000000x2, .f32⟩
  | .hbm, ⟨18, _⟩ => ⟨S1000000x2, .f32⟩
  | .hbm, ⟨19, _⟩ => ⟨S1000000x2, .f32⟩
  | .hbm, ⟨20, _⟩ => ⟨S1000000x2, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call1_v0 : Ref sig .tc := ⟨.hbm, 15, rfl⟩
abbrev main_call1_v1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  transposes_S2x128_S128x2_1_0 : S2x128.Transposes [1, 0] S128x2
  bcast_S2_S1x2_1 : S2.BroadcastsInDim S1x2 (![1] : Fin 1 → Fin S1x2.rank)
  bcast_S1x2_S1000000x2_0_1 : S1x2.BroadcastsInDim S1000000x2 (![0, 1] : Fin 2 → Fin S1000000x2.rank)
  slices_S1000000x2_S1000000x1_0_0 : S1000000x2.Slices ![0, 0] S1000000x1
  slices_S1000000x2_S999999x2_1_0 : S1000000x2.Slices ![1, 0] S999999x2
  slices_S1000000x2_S1x2_0_0 : S1000000x2.Slices ![0, 0] S1x2
  concatenates_S999999x2_S1x2_S1000000x2_d0 : Shape.Concatenates [S999999x2, S1x2] S1000000x2 0
  bcast_S1000000x1_S1000000x2_0_1 : S1000000x1.BroadcastsInDim S1000000x2 (![0, 1] : Fin 2 → Fin S1000000x2.rank)
  slices_S1000000x2_S1000000x1_0_1 : S1000000x2.Slices ![0, 1] S1000000x1
  slices_S1000000x2_S999998x2_2_0 : S1000000x2.Slices ![2, 0] S999998x2
  slices_S1000000x2_S2x2_0_0 : S1000000x2.Slices ![0, 0] S2x2
  concatenates_S999998x2_S2x2_S1000000x2_d0 : Shape.Concatenates [S999998x2, S2x2] S1000000x2 0
  dot_S1000000x128_S128x2_S1000000x2_1_0_0_1_n_n_wf : DotDims.WF S1000000x128 S128x2 S1000000x2 [1] [0] [0] [1] [] []

variable [Facts₀]

def dot_S1000000x128_S128x2_S1000000x2_1_0_0_1_n_n : DotDims S1000000x128 S128x2 S1000000x2 where
  lhsContracting := [1]
  rhsContracting := [0]
  lhsNonContracting := [0]
  rhsNonContracting := [1]
  lhsBatch := []
  rhsBatch := []
  wf := dot_S1000000x128_S128x2_S1000000x2_1_0_0_1_n_n_wf

class Facts : Prop extends Facts₀ where

variable [Facts]
-- ==== Proof.KLin.lean ====
/-
  The first kernel region, one grid point at a time: the linear layer on a block of 8000 rows.

  At grid point t (of 125) the region stages rows 8000 t … 8000 t + 7999 of X, all of Wg and the bias row, runs the
  body, and writes the 8000 × 2 block it stored back to rows 8000 t … of V. The body reads the three input blocks
  and stores ONE value into the whole output block: the matrix product of the X block with Wg transposed, plus the
  bias row on every row. What follows says exactly that, as the data the region's launch rule asks for: each
  window's block at a point, the body's Hoare triple, what every staging buffer holds after the body at each
  point, and the per-point obligation.
-/
import proofs.«171172_j23519240913301_1_alg».proof.Proof.Gen.Kernel.Launch
import proofs.«171172_j23519240913301_1_alg».proof.Proof.Gen.Kernel.Skeleton
import proofs.«171172_j23519240913301_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is decided coordinate by coordinate along the long axis
set_option maxRecDepth 16384

noncomputable section

namespace Cert.Kernel.Lin

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- what the core's buffers hold when the region is entered
variable (V : (c : Dev nD) → (b : Ref sig .tc) → Buf (Elt F) ((c : Thread nD τ).loc b))

/-! ## The windows' blocks -/

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the point fetches it or not
    (unfetched, its block index has not moved since the fetch): for any proof data whose array is the region-entry
    contents and whose body leaves the block in place. -/
theorem found_0_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1's current staging buffer holds its block at every point, whether the point fetches it or not
    (unfetched, its block index has not moved since the fetch): for any proof data whose array is the region-entry
    contents and whose body leaves the block in place. -/
theorem found_1_of {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2's current staging buffer holds its block at every point, whether the point fetches it or not
    (unfetched, its block index has not moved since the fetch): for any proof data whose array is the region-entry
    contents and whose body leaves the block in place. -/
theorem found_2_of {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The body's accesses: every load and the store take the whole buffer -/

abbrev rX : Rect S8000x128 := Rect.unit (s := S8000x128) ![0, 0] S8000x128.size inb_S8000x128_S8000x128_0_0
abbrev rW : Rect S2x128 := Rect.unit (s := S2x128) ![0, 0] S2x128.size inb_S2x128_S2x128_0_0
abbrev rB : Rect S1x2 := Rect.unit (s := S1x2) ![0, 0] S1x2.size inb_S1x2_S1x2_0_0
abbrev rO : Rect S8000x2 := Rect.unit (s := S8000x2) ![0, 0] S8000x2.size inb_S8000x2_S8000x2_0_0

/-! ## What the body leaves in the output window's buffer -/

/-- The output buffer after the body: its one store, of the body's value on the three loaded blocks. -/
def outBlk (x0 : Vec F S8000x128 .f32) (x1 : Vec F S2x128 .f32) (x2 : Vec F S1x2 .f32) : Vec F S8000x2 .f32 :=
  View.canon [⟨rO, k0_pay1 (View.ld x0 rX) (View.ld x1 rW) (View.ld x2 rB)⟩]

/-- The one store covers the buffer. -/
theorem cover_out (p0 : Vec F S8000x2 .f32) (y : S8000x2.Idx) :
    ∃ pc ∈ ([⟨rO, p0⟩] : List (View.Piece (Elt F) S8000x2 .f32)), y ∈ pc.1.set :=
  View.cover_of_tiled [⟨rO, p0⟩] S8000x2.size (by rfl) y

/-! ## The body's triple -/

set_option maxHeartbeats 1000000 in
/-- The body on whole staging buffers — the inputs' at contents `x0 x1 x2`, the output's at anything — runs to the
    continuation with the inputs' as they were and the output's at `outBlk x0 x1 x2`. -/
theorem sound_kernel (c : Dev nD) (E : Set ℕ) (i : grid0.Coords)
    (a1 : Memref sig .tc .vmem S8000x128 .f32) (h1 : a1.IsWhole) (a2 : Memref sig .tc .vmem S2x128 .f32) (h2 : a2.IsWhole)
    (a3 : Memref sig .tc .vmem S1x2 .f32) (h3 : a3.IsWhole) (a4 : Memref sig .tc .vmem S8000x2 .f32) (h4 : a4.IsWhole)
    (x0 : Vec F S8000x128 .f32) (x1 : Vec F S2x128 .f32) (x2 : Vec F S1x2 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d)
        ∗ (iprop(owns (c : Thread nD τ) a1 fullShare x0 ∗ owns (c : Thread nD τ) a2 fullShare x1 ∗ owns (c : Thread nD τ) a3 fullShare x2
            ∗ owns (c : Thread nD τ) a4 fullShare (outBlk x0 x1 x2)) -∗ K ⟨⟩))
      ⊢ wp frame (wpE (defs₀ (F := F)) Variants.none c none) E (cc0__linear_kernel i a1 h1 a2 h2 a3 h3 a4 h4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

/-! ## The region's proof data -/

/-- On core `c`: the arrays as the region finds them; after the body at point `t` each input's buffer at its block and
    the output's at `outBlk` of the input blocks; the invariant is the scoped rest and the generator register,
    untouched; nothing owed; every array held whole. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => outBlk (blk V c 0 t) (blk V c 1 t) (blk V c 2 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) :
    (dat V c).after 3 t = outBlk (blk V c 0 t) (blk V c 1 t) (blk V c 2 t) := by dsimp only [dat]

theorem before_0 (c : Dev nD) (t : Fin cfg0.N) (d) : (dat V c).before 0 t d = blk V c 0 t :=
  found_0_of V (dat V c) (A_eq V c 0) (after_0 V c) t d
theorem before_1 (c : Dev nD) (t : Fin cfg0.N) (d) : (dat V c).before 1 t d = blk V c 1 t :=
  found_1_of V (dat V c) (A_eq V c 1) (after_1 V c) t d
theorem before_2 (c : Dev nD) (t : Fin cfg0.N) (d) : (dat V c).before 2 t d = blk V c 2 t :=
  found_2_of V (dat V c) (A_eq V c 2) (after_2 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' buffers hold their blocks, so the triple applies; the invariant and what the
    core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch rule's body obligation, at every point. -/
theorem body_obligation (c : Dev nD) : BodyObligation (dat (F := F) V c) (defs₀ (F := F)) Variants.none () Set.univ := fun t => by
  rw [bigSep_W0, bigSep_W0]
  exact sound_body V c t

end Cert.Kernel.Lin

end
-- ==== Proof.KComb.lean ====
/-
  The second kernel region, one grid point at a time: every row combined with the two rows after it.

  At grid point t (of 250) the region stages rows 4000 t … 4000 t + 3999 of V (the block the point works on) and,
  through a second window on the SAME array, the eight rows that start the next block on the circle (block
  (t + 1) mod 250); the body reads both and stores ONE value into the whole 4000 × 2 output block, which is written
  back to rows 4000 t … of the result. What follows is the data the region's launch rule asks for: each window's
  block at a point, the body's Hoare triple, what every staging buffer holds after the body at each point, and the
  per-point obligation. The two input windows read one array, so the core holds that array in two halves, one per
  window.
-/
import proofs.«171172_j23519240913301_1_alg».proof.Proof.Gen.Kernel.Launch
import proofs.«171172_j23519240913301_1_alg».proof.Proof.Gen.Kernel.Skeleton
import proofs.«171172_j23519240913301_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is decided coordinate by coordinate along the long axis
set_option maxRecDepth 16384

noncomputable section

namespace Cert.Kernel.Comb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- what the core's buffers hold when the region is entered
variable (V : (c : Dev nD) → (b : Ref sig .tc) → Buf (Elt F) ((c : Thread nD τ).loc b))

/-! ## The windows' blocks -/

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the point fetches it or not
    (unfetched, its block index has not moved since the fetch): for any proof data whose array is the region-entry
    contents and whose body leaves the block in place. -/
theorem found_0_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1's current staging buffer holds its block at every point, whether the point fetches it or not
    (unfetched, its block index has not moved since the fetch): for any proof data whose array is the region-entry
    contents and whose body leaves the block in place. -/
theorem found_1_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-! ## The body's accesses: every load and the store take the whole buffer -/

abbrev rV : Rect S4000x2 := Rect.unit (s := S4000x2) ![0, 0] S4000x2.size inb_S4000x2_S4000x2_0_0
abbrev rH : Rect S8x2 := Rect.unit (s := S8x2) ![0, 0] S8x2.size inb_S8x2_S8x2_0_0

/-! ## What the body leaves in the output window's buffer -/

/-- The output buffer after the body: its one store, of the body's value on the two loaded blocks. -/
def outBlk (x0 : Vec F S4000x2 .f32) (x1 : Vec F S8x2 .f32) : Vec F S4000x2 .f32 :=
  View.canon [⟨rV, k1_pay1 (View.ld x0 rV) (View.ld x1 rH)⟩]

/-- The one store covers the buffer. -/
theorem cover_out (p0 : Vec F S4000x2 .f32) (y : S4000x2.Idx) :
    ∃ pc ∈ ([⟨rV, p0⟩] : List (View.Piece (Elt F) S4000x2 .f32)), y ∈ pc.1.set :=
  View.cover_of_tiled [⟨rV, p0⟩] S4000x2.size (by rfl) y

/-! ## The body's triple -/

set_option maxHeartbeats 1000000 in
/-- The body on whole staging buffers — the inputs' at contents `x0 x1`, the output's at anything — runs to the
    continuation with the inputs' as they were and the output's at `outBlk x0 x1`. -/
theorem sound_kernel (c : Dev nD) (E : Set ℕ) (i : grid1.Coords)
    (a1 : Memref sig .tc .vmem S4000x2 .f32) (h1 : a1.IsWhole) (a2 : Memref sig .tc .vmem S8x2 .f32) (h2 : a2.IsWhole)
    (a3 : Memref sig .tc .vmem S4000x2 .f32) (h3 : a3.IsWhole)
    (x0 : Vec F S4000x2 .f32) (x1 : Vec F S8x2 .f32) (K : PUnit → sProp 𝕄) :
    iprop(owns (c : Thread nD τ) a1 fullShare x0 ∗ owns (c : Thread nD τ) a2 fullShare x1
        ∗ (∃ d, owns (c : Thread nD τ) a3 fullShare d)
        ∗ (iprop(owns (c : Thread nD τ) a1 fullShare x0 ∗ owns (c : Thread nD τ) a2 fullShare x1
            ∗ owns (c : Thread nD τ) a3 fullShare (outBlk x0 x1)) -∗ K ⟨⟩))
      ⊢ wp frame (wpE (defs₀ (F := F)) Variants.none c none) E (cc1__combine_kernel i a1 h1 a2 h2 a3 h3) K := by
  simp only [cc1__combine_kernel_eq_skeleton]; unfold cc1__combine_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The region's proof data -/

/-- On core `c`: the arrays as the region finds them; after the body at point `t` each input's buffer at its block and
    the output's at `outBlk` of the input blocks; the invariant is the scoped rest and the generator register,
    untouched; nothing owed. The array the two input windows share is held half by each; the output's whole. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => outBlk (blk V c 0 t) (blk V c 1 t)
  Φ _ := Pipeline.ΦA spec1 c
  q w := match w with
    | ⟨0, _⟩ => fullShare.left
    | ⟨1, _⟩ => fullShare.right
    | ⟨2, _⟩ => fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) :
    (dat V c).after 2 t = outBlk (blk V c 0 t) (blk V c 1 t) := by dsimp only [dat]

theorem share_0 (c : Dev nD) : (dat V c).share 0 = fullShare.left := by unfold Dat.share; rfl
theorem share_1 (c : Dev nD) : (dat V c).share 1 = fullShare.right := by unfold Dat.share; rfl
theorem share_2 (c : Dev nD) : (dat V c).share 2 = fullShare := by unfold Dat.share; rfl

theorem before_0 (c : Dev nD) (t : Fin cfg1.N) (d) : (dat V c).before 0 t d = blk V c 0 t :=
  found_0_of V (dat V c) (A_eq V c 0) (after_0 V c) t d
theorem before_1 (c : Dev nD) (t : Fin cfg1.N) (d) : (dat V c).before 1 t d = blk V c 1 t :=
  found_1_of V (dat V c) (A_eq V c 1) (after_1 V c) t d

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any point: the inputs' buffers hold their blocks, so the triple applies; the invariant and what the
    core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch rule's body obligation, at every point. -/
theorem body_obligation (c : Dev nD) : BodyObligation (dat (F := F) V c) (defs₀ (F := F)) Variants.none () Set.univ := fun t => by
  rw [bigSep_W1, bigSep_W1]
  exact sound_body V c t

end Cert.Kernel.Comb

end
-- ==== Proof.KHalves.lean ====
/-
  The second kernel region's arrays among the core's unscoped buffers, when two windows share an array.

  The region's input windows 0 and 1 both view the array main_v1; its output window 2 views main_v2. The core
  therefore holds main_v1 in two halves of the full share — the left half for window 0, the right half for window 1 —
  and main_v2 whole. At the region's entry the core's one whole main_v1 is split along its share into the two halves;
  at its exit, an input window's array never having been written, the two halves hold what was split and join back
  into the whole, while main_v2 comes back at what the write-backs left in it.
-/
import proofs.«171172_j23519240913301_1_alg».proof.Proof.KComb
set_option maxRecDepth 16384
noncomputable section
namespace Cert.Kernel.Halves
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! ## The region's arrays, as buffers -/

/-- The windows' arrays are the two buffers main_v1 (windows 0 and 1) and main_v2 (window 2). -/
theorem arrs_eq : (Finset.univ.image (Pipeline.arrRef spec1) : Finset (Ref sig .tc)) = {main_v1, main_v2} := by decide

/-- Both are unscoped buffers. -/
theorem arrs_unscoped : (Finset.univ.image (Pipeline.arrRef spec1) : Finset (Ref sig .tc))
    ⊆ Finset.univ.filter fun b : Ref sig .tc => ¬ b.isScoped := by decide

/-- A core's unscoped buffers at contents `W` are the two buffers behind the windows' arrays and the rest. -/
theorem bufs_split (c : Dev nD) (W : (b : Ref sig .tc) → Buf (Elt F) ((c : Thread nD τ).loc b)) :
    (unscopedBufs c W : sProp 𝕄)
      = iprop((((c : Thread nD τ).loc main_v1) ↦{fullShare} W main_v1) ∗ (((c : Thread nD τ).loc main_v2) ↦{fullShare} W main_v2)
          ∗ Pipeline.unscopedRest (Ix := Unit) (Name := ℕ) (U := UR sig nD τ) (Lvl := ℕ) spec1 c W) := by
  unfold unscopedBufs Pipeline.unscopedRest
  rw [bigSep_sdiff_split arrs_unscoped, arrs_eq, bigSep_insert (by decide), bigSep_singleton]
  exact equiv_iff.mp ⟨BI.sep_assoc, BI.sep_assoc'⟩

/-- The region's arrays at contents `G`, window by window: main_v1 at the left half of the full share for window 0
    and at the right half for window 1, main_v2 at the full share; each array is its whole buffer. -/
theorem arrays_halves (c : Dev nD)
    (G : (w : Fin cfg1.W) → Buf (Elt F) ((cfg1.win w).arr.view.loc (c : Thread nD τ))) :
    ((Comb.dat V c).arrays G : sProp 𝕄)
      = iprop((((c : Thread nD τ).loc main_v1) ↦{fullShare.left} G 0) ∗ (((c : Thread nD τ).loc main_v1) ↦{fullShare.right} G 1)
          ∗ (((c : Thread nD τ).loc main_v2) ↦{fullShare} G 2)) := by
  unfold Dat.arrays
  rw [bigSep_W1, Comb.share_0, Comb.share_1, Comb.share_2]
  -- windows 0 and 1 view one array, so one rewriting serves both
  rw [show (cfg1.win 0).arr.view.set = Finset.univ from (arr_whole1 0).set_eq_univ,
    show (cfg1.win 2).arr.view.set = Finset.univ from (arr_whole1 2).set_eq_univ]

/-- ENTRY: the core's unscoped buffers at contents V c are the region's arrays at their entry contents — main_v1 in two halves, one per input window, main_v2 whole — and the unscoped buffers that are no window's array. -/
theorem arrays_of_bufs (c : Dev nD) :
    (unscopedBufs c (V c) : sProp 𝕄)
      ⊢ iprop((Comb.dat V c).arrays (fun w => (Comb.dat V c).arrAt w 0)
          ∗ Pipeline.unscopedRest (Ix := Unit) (Name := ℕ) (U := UR sig nD τ) (Lvl := ℕ) spec1 c (V c)) := by
  rw [bufs_split, arrays_halves]
  -- at entry every array holds what the core's buffer holds
  show iprop((((c : Thread nD τ).loc main_v1) ↦{fullShare} V c main_v1) ∗ (((c : Thread nD τ).loc main_v2) ↦{fullShare} V c main_v2)
      ∗ Pipeline.unscopedRest (Ix := Unit) (Name := ℕ) (U := UR sig nD τ) (Lvl := ℕ) spec1 c (V c))
    ⊢ iprop(((((c : Thread nD τ).loc main_v1) ↦{fullShare.left} V c main_v1) ∗ (((c : Thread nD τ).loc main_v1) ↦{fullShare.right} V c main_v1)
        ∗ (((c : Thread nD τ).loc main_v2) ↦{fullShare} V c main_v2))
      ∗ Pipeline.unscopedRest (Ix := Unit) (Name := ℕ) (U := UR sig nD τ) (Lvl := ℕ) spec1 c (V c))
  iintro ⟨H1, H2, Hr⟩
  -- main_v1 along its share
  ihave H1 := (pointsTo_share (PosShare.mem_left_op_right fullShare)).1 $$ H1
  icases H1 with ⟨Hl, Hrt⟩
  isplitr [Hr]
  · isplitl [Hl]; · iexact Hl
    isplitl [Hrt]; · iexact Hrt
    iexact H2
  iexact Hr

/-- EXIT: the arrays at what the region leaves (the two halves of main_v1 as entered, main_v2 at the write-backs' result) and the rest are the core's unscoped buffers at any contents V' that has main_v2 at that result and agrees with V c elsewhere. -/
theorem bufs_of_arrays (c : Dev nD) (V' : (b : Ref sig .tc) → Buf (Elt F) ((c : Thread nD τ).loc b))
    (hout : V' (Pipeline.arrRef spec1 2) = (Comb.dat V c).arrAt 2 cfg1.N)
    (hrest : ∀ b : Ref sig .tc, b ≠ main_v2 → V' b = V c b) :
    iprop((Comb.dat V c).arrays (fun w => (Comb.dat V c).arrAt w cfg1.N)
        ∗ Pipeline.unscopedRest (Ix := Unit) (Name := ℕ) (U := UR sig nD τ) (Lvl := ℕ) spec1 c (V c))
      ⊢ (unscopedBufs c V' : sProp 𝕄) := by
  -- an input window's array is never written: both halves of main_v1 hold what V' holds there
  have h0 : (Comb.dat V c).arrAt 0 cfg1.N = V' main_v1 :=
    ((Comb.dat V c).arrAt_in 0 rfl cfg1.N).trans (hrest main_v1 (by decide)).symm
  have h1 : (Comb.dat V c).arrAt 1 cfg1.N = V' main_v1 :=
    ((Comb.dat V c).arrAt_in 1 rfl cfg1.N).trans (hrest main_v1 (by decide)).symm
  have h2 : (Comb.dat V c).arrAt 2 cfg1.N = V' main_v2 := hout.symm
  -- off the arrays V' is V c
  have hr : (Pipeline.unscopedRest (Ix := Unit) (Name := ℕ) (U := UR sig nD τ) (Lvl := ℕ) spec1 c (V c) : sProp 𝕄)
      = Pipeline.unscopedRest (Ix := Unit) (Name := ℕ) (U := UR sig nD τ) (Lvl := ℕ) spec1 c V' := by
    unfold Pipeline.unscopedRest
    refine bigSep_congr fun b hb => ?_
    have hb' : b ≠ main_v2 := fun h => (Finset.mem_sdiff.mp hb).2 (by rw [h, arrs_eq]; decide)
    rw [hrest b hb']
  rw [bufs_split, arrays_halves, hr]
  simp only [h0, h1, h2]
  iintro ⟨⟨Hl, Hrt, H2⟩, Hr⟩
  -- the two halves of main_v1 make the whole
  ihave H1 := (pointsTo_share (PosShare.mem_left_op_right fullShare)).2 $$ [Hl Hrt]
  · isplitl [Hl]; · iexact Hl
    iexact Hrt
  isplitl [H1]; · iexact H1
  isplitl [H2]; · iexact H2
  iexact Hr
end Cert.Kernel.Halves
end
-- ==== Proof.KWhole.lean ====
/-
  The whole program, from launch to return: a reshape of the bias on the host, then the two kernel regions.

  The core's unscoped buffers are followed through the three items of the program as one valuation per boundary:
  at launch they hold the memory; after the host reshape, the same with the bias row written; after the first
  region, its output array (the linear layer's V) at what its 125 write-backs leave and everything else as entered;
  after the second region, its output array at what its 250 write-backs leave. Each region is entered from the
  buffers at the boundary before it and left at the boundary after it; the second region reads ONE array through
  two windows, so at its entry that array is dealt in two halves and at its exit the halves are joined again. The
  run ends with every unscoped buffer at the last valuation: the frame claim and the value claim are both read off
  it.
-/
import proofs.«171172_j23519240913301_1_alg».proof.Proof.KLin
import proofs.«171172_j23519240913301_1_alg».proof.Proof.KComb
import proofs.«171172_j23519240913301_1_alg».proof.Proof.KHalves
import proofs.«171172_j23519240913301_1_alg».proof.Proof.Gen.Kernel.Regions

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m (c, b)
/-- After the host reshape (the first region's entry). -/
abbrev W1 : Dev nD → Valuation τ sig (Elt F) := fun c => StableHlo.after hostOps0 (W0 m c)
/-- The same read at the core's references. -/
abbrev V1 : (c : Dev nD) → (b : Ref sig .tc) → Buf (Elt F) ((c : Thread nD τ).loc b) := fun c b => W1 m c b
/-- At the first region's exit: its arrays at what the pipeline leaves (the inputs as entered, the output's write-backs
    folded), every other buffer as entered. -/
def W2 (c : Dev nD) : Valuation τ sig (Elt F) :=
  Pipeline.withArrays spec0 c (W1 m c) fun w => (Lin.dat (V1 m) c).arrAt w cfg0.N
theorem W2_arr (c : Dev nD) (w : Fin cfg0.W) :
    W2 m c (Proc.devRef .tc (Pipeline.arrRef spec0 w)) = (Lin.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the core's references (the second region's entry). -/
abbrev V2 : (c : Dev nD) → (b : Ref sig .tc) → Buf (Elt F) ((c : Thread nD τ).loc b) := fun c b => W2 m c b
theorem exit0_arr (c : Dev nD) (w : Fin cfg0.W) : (Lin.dat (V1 m) c).arrAt w cfg0.N = V2 m c (Pipeline.arrRef spec0 w) :=
  (W2_arr m c w).symm
theorem exit0_rest (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the second region's exit: its output array at what the pipeline leaves, every other buffer as entered (its two
    input windows read one array, which no write-back touches). -/
def W3 (c : Dev nD) : Valuation τ sig (Elt F) :=
  Function.update (W2 m c) main_v2 (show Buf (Elt F) ((c : Thread nD τ).loc main_v2) from (Comb.dat (V2 m) c).arrAt 2 cfg1.N)
/-- The same read at the core's references. -/
abbrev V3 : (c : Dev nD) → (b : Ref sig .tc) → Buf (Elt F) ((c : Thread nD τ).loc b) := fun c b => W3 m c b
theorem W3_out (c : Dev nD) : W3 m c (Proc.devRef .tc main_v2) = (Comb.dat (V2 m) c).arrAt 2 cfg1.N := by
  unfold W3; exact Function.update_self ..
theorem W3_of_ne (c : Dev nD) (b : Ref sig .tc) (hb : b ≠ main_v2) : W3 m c (Proc.devRef .tc b) = W2 m c (Proc.devRef .tc b) := by
  unfold W3; exact Function.update_of_ne (StableHlo.devRef_ne_of_ne hb) ..

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Lin.dat (V1 m) c
  | ⟨1, _⟩ => fun c => Comb.dat (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and that it owes nothing. -/
abbrev R (c : Dev nD) : sProp 𝕄 := iprop((∃ r, prngReg c r) ∗ ∃ W, owes (c : Thread nD τ) (0 : CellTallies nD τ sig Unit) W)
/-- The host stretch as an item: it runs over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the generator
    register at some state. -/
abbrev Tₙ (c : Dev nD) : sProp 𝕄 := iprop(StableHlo.held (c : Thread nD τ) (Pipeline.ucRefs τ sig) (W3 m c) ∗ ∃ r, prngReg c r)

/-! ## The regions as items -/

set_option backward.isDefEq.respectTransparency.types false in
/-- The first region: entered from every unscoped buffer at `W1`, left at `W2`. Its arrays are split out of the unscoped
    buffers and put back at the exit contents; the generator register goes into the region's invariant and comes out;
    nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Lin.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W2`, left at `W3`. The array its two input windows read is
    dealt in halves at the entry and joined at the exit; the rest as for the first region. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Comb.body_obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Halves.arrays_of_bufs (V2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
          ∗ Pipeline.unscopedRest (Ix := Unit) (Name := ℕ) (U := UR sig nD τ) (Lvl := ℕ) spec1 c (V2 m c))
        ⊢ (unscopedBufs c (V3 m c) : sProp 𝕄) :=
      Halves.bufs_of_arrays (V2 m) c (V3 m c) (W3_out m c) (fun b hb => W3_of_ne m c b hb)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as items, and the launch -/

/-- The program's three items in order: the host stretch from the launch contents, then the two regions. -/
abbrev segs : List (Pipeline.Seg (pcfgs (F := F)) adm (pdats m) () defs₀ 𝒱₀ L lv) :=
  [ .host (hseg hostOps0 hostOps0_sub hostOps0_fresh (W0 m)),
    .region (reg0 m),
    .region (reg1 m) ]
/-- The program IS the run of the items. -/
theorem main_run (c : Dev nD) : main (F := F) c = Pipeline.Seg.run (segs m) := (main_chain c).trans (by chain_rfl)

set_option backward.isDefEq.respectTransparency.types false in
/-- THE RUN: from any memory with zero counters, every weakly fair execution of the program terminates, nothing faulting,
    and every final state holds every unscoped buffer at the last boundary's contents `W3`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-! ## What the last valuation holds at the arguments: no item writes one -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((Lin.dat (V1 m) c).arrAt_in 0 rfl _).trans (Lin.A_eq (V1 m) c 0))
    _ = m ((c : Thread nD τ).loc main_arg0) := V1_of m c main_arg0 (by decide)

theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := (W2_arr m c 1).trans (((Lin.dat (V1 m) c).arrAt_in 1 rfl _).trans (Lin.A_eq (V1 m) c 1))
    _ = m ((c : Thread nD τ).loc main_arg1) := V1_of m c main_arg1 (by decide)

theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = m ((c : Thread nD τ).loc main_arg2) := V1_of m c main_arg2 (by decide)

/-- THE FRAME: every weakly fair execution terminates, nothing faulting, and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c)⟩) (run m ρ)

end Cert.Kernel.Whole

end
-- ==== Proof.Lin.lean ====
/-
  The first kernel region, one grid point at a time: the linear layer on a block of 8000 rows.

  At grid point t (of 125) the region stages rows 8000 t … 8000 t + 7999 of X, all of Wg and the bias row, runs the
  body, and writes the 8000 × 2 block it stored back to rows 8000 t … of V. The body reads the three input blocks
  and stores ONE value into the whole output block: the matrix product of the X block with Wg transposed, plus the
  bias row on every row. What follows says exactly that, as the data the region's launch rule asks for: each
  window's block at a point, the body's Hoare triple, what every staging buffer holds after the body at each
  point, and the per-point obligation.
-/
import proofs.«171172_j23519240913301_1_alg».proof.Proof.Gen.KernelIdeal.Launch
import proofs.«171172_j23519240913301_1_alg».proof.Proof.Gen.KernelIdeal.Skeleton
import proofs.«171172_j23519240913301_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is decided coordinate by coordinate along the long axis
set_option maxRecDepth 16384

noncomputable section

namespace Cert.KernelIdeal.Lin

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- what the core's buffers hold when the region is entered
variable (V : (c : Dev nD) → (b : Ref sig .tc) → Buf (Elt F) ((c : Thread nD τ).loc b))

/-! ## The windows' blocks -/

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the point fetches it or not
    (unfetched, its block index has not moved since the fetch): for any proof data whose array is the region-entry
    contents and whose body leaves the block in place. -/
theorem found_0_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1's current staging buffer holds its block at every point, whether the point fetches it or not
    (unfetched, its block index has not moved since the fetch): for any proof data whose array is the region-entry
    contents and whose body leaves the block in place. -/
theorem found_1_of {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2's current staging buffer holds its block at every point, whether the point fetches it or not
    (unfetched, its block index has not moved since the fetch): for any proof data whose array is the region-entry
    contents and whose body leaves the block in place. -/
theorem found_2_of {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The body's accesses: every load and the store take the whole buffer -/

abbrev rX : Rect S8000x128 := Rect.unit (s := S8000x128) ![0, 0] S8000x128.size inb_S8000x128_S8000x128_0_0
abbrev rW : Rect S2x128 := Rect.unit (s := S2x128) ![0, 0] S2x128.size inb_S2x128_S2x128_0_0
abbrev rB : Rect S1x2 := Rect.unit (s := S1x2) ![0, 0] S1x2.size inb_S1x2_S1x2_0_0
abbrev rO : Rect S8000x2 := Rect.unit (s := S8000x2) ![0, 0] S8000x2.size inb_S8000x2_S8000x2_0_0

/-! ## What the body leaves in the output window's buffer -/

/-- The output buffer after the body: its one store, of the body's value on the three loaded blocks. -/
def outBlk (x0 : Vec F S8000x128 .f32) (x1 : Vec F S2x128 .f32) (x2 : Vec F S1x2 .f32) : Vec F S8000x2 .f32 :=
  View.canon [⟨rO, k0_pay1 (View.ld x0 rX) (View.ld x1 rW) (View.ld x2 rB)⟩]

/-- The one store covers the buffer. -/
theorem cover_out (p0 : Vec F S8000x2 .f32) (y : S8000x2.Idx) :
    ∃ pc ∈ ([⟨rO, p0⟩] : List (View.Piece (Elt F) S8000x2 .f32)), y ∈ pc.1.set :=
  View.cover_of_tiled [⟨rO, p0⟩] S8000x2.size (by rfl) y

/-! ## The body's triple -/

set_option maxHeartbeats 1000000 in
/-- The body on whole staging buffers — the inputs' at contents `x0 x1 x2`, the output's at anything — runs to the
    continuation with the inputs' as they were and the output's at `outBlk x0 x1 x2`. -/
theorem sound_kernel (c : Dev nD) (E : Set ℕ) (i : grid0.Coords)
    (a1 : Memref sig .tc .vmem S8000x128 .f32) (h1 : a1.IsWhole) (a2 : Memref sig .tc .vmem S2x128 .f32) (h2 : a2.IsWhole)
    (a3 : Memref sig .tc .vmem S1x2 .f32) (h3 : a3.IsWhole) (a4 : Memref sig .tc .vmem S8000x2 .f32) (h4 : a4.IsWhole)
    (x0 : Vec F S8000x128 .f32) (x1 : Vec F S2x128 .f32) (x2 : Vec F S1x2 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d)
        ∗ (iprop(owns (c : Thread nD τ) a1 fullShare x0 ∗ owns (c : Thread nD τ) a2 fullShare x1 ∗ owns (c : Thread nD τ) a3 fullShare x2
            ∗ owns (c : Thread nD τ) a4 fullShare (outBlk x0 x1 x2)) -∗ K ⟨⟩))
      ⊢ wp frame (wpE (defs₀ (F := F)) Variants.none c none) E (cc0__linear_kernel i a1 h1 a2 h2 a3 h3 a4 h4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

/-! ## The region's proof data -/

/-- On core `c`: the arrays as the region finds them; after the body at point `t` each input's buffer at its block and
    the output's at `outBlk` of the input blocks; the invariant is the scoped rest and the generator register,
    untouched; nothing owed; every array held whole. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => outBlk (blk V c 0 t) (blk V c 1 t) (blk V c 2 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) :
    (dat V c).after 3 t = outBlk (blk V c 0 t) (blk V c 1 t) (blk V c 2 t) := by dsimp only [dat]

theorem before_0 (c : Dev nD) (t : Fin cfg0.N) (d) : (dat V c).before 0 t d = blk V c 0 t :=
  found_0_of V (dat V c) (A_eq V c 0) (after_0 V c) t d
theorem before_1 (c : Dev nD) (t : Fin cfg0.N) (d) : (dat V c).before 1 t d = blk V c 1 t :=
  found_1_of V (dat V c) (A_eq V c 1) (after_1 V c) t d
theorem before_2 (c : Dev nD) (t : Fin cfg0.N) (d) : (dat V c).before 2 t d = blk V c 2 t :=
  found_2_of V (dat V c) (A_eq V c 2) (after_2 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' buffers hold their blocks, so the triple applies; the invariant and what the
    core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch rule's body obligation, at every point. -/
theorem body_obligation (c : Dev nD) : BodyObligation (dat (F := F) V c) (defs₀ (F := F)) Variants.none () Set.univ := fun t => by
  rw [bigSep_W0, bigSep_W0]
  exact sound_body V c t

end Cert.KernelIdeal.Lin

end
-- ==== Proof.Comb.lean ====
/-
  The second kernel region, one grid point at a time: every row combined with the two rows after it.

  At grid point t (of 250) the region stages rows 4000 t … 4000 t + 3999 of V (the block the point works on) and,
  through a second window on the SAME array, the eight rows that start the next block on the circle (block
  (t + 1) mod 250); the body reads both and stores ONE value into the whole 4000 × 2 output block, which is written
  back to rows 4000 t … of the result. What follows is the data the region's launch rule asks for: each window's
  block at a point, the body's Hoare triple, what every staging buffer holds after the body at each point, and the
  per-point obligation. The two input windows read one array, so the core holds that array in two halves, one per
  window.
-/
import proofs.«171172_j23519240913301_1_alg».proof.Proof.Gen.KernelIdeal.Launch
import proofs.«171172_j23519240913301_1_alg».proof.Proof.Gen.KernelIdeal.Skeleton
import proofs.«171172_j23519240913301_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is decided coordinate by coordinate along the long axis
set_option maxRecDepth 16384

noncomputable section

namespace Cert.KernelIdeal.Comb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- what the core's buffers hold when the region is entered
variable (V : (c : Dev nD) → (b : Ref sig .tc) → Buf (Elt F) ((c : Thread nD τ).loc b))

/-! ## The windows' blocks -/

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the point fetches it or not
    (unfetched, its block index has not moved since the fetch): for any proof data whose array is the region-entry
    contents and whose body leaves the block in place. -/
theorem found_0_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1's current staging buffer holds its block at every point, whether the point fetches it or not
    (unfetched, its block index has not moved since the fetch): for any proof data whose array is the region-entry
    contents and whose body leaves the block in place. -/
theorem found_1_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-! ## The body's accesses: every load and the store take the whole buffer -/

abbrev rV : Rect S4000x2 := Rect.unit (s := S4000x2) ![0, 0] S4000x2.size inb_S4000x2_S4000x2_0_0
abbrev rH : Rect S8x2 := Rect.unit (s := S8x2) ![0, 0] S8x2.size inb_S8x2_S8x2_0_0

/-! ## What the body leaves in the output window's buffer -/

/-- The output buffer after the body: its one store, of the body's value on the two loaded blocks. -/
def outBlk (x0 : Vec F S4000x2 .f32) (x1 : Vec F S8x2 .f32) : Vec F S4000x2 .f32 :=
  View.canon [⟨rV, k1_pay1 (View.ld x0 rV) (View.ld x1 rH)⟩]

/-- The one store covers the buffer. -/
theorem cover_out (p0 : Vec F S4000x2 .f32) (y : S4000x2.Idx) :
    ∃ pc ∈ ([⟨rV, p0⟩] : List (View.Piece (Elt F) S4000x2 .f32)), y ∈ pc.1.set :=
  View.cover_of_tiled [⟨rV, p0⟩] S4000x2.size (by rfl) y

/-! ## The body's triple -/

set_option maxHeartbeats 1000000 in
/-- The body on whole staging buffers — the inputs' at contents `x0 x1`, the output's at anything — runs to the
    continuation with the inputs' as they were and the output's at `outBlk x0 x1`. -/
theorem sound_kernel (c : Dev nD) (E : Set ℕ) (i : grid1.Coords)
    (a1 : Memref sig .tc .vmem S4000x2 .f32) (h1 : a1.IsWhole) (a2 : Memref sig .tc .vmem S8x2 .f32) (h2 : a2.IsWhole)
    (a3 : Memref sig .tc .vmem S4000x2 .f32) (h3 : a3.IsWhole)
    (x0 : Vec F S4000x2 .f32) (x1 : Vec F S8x2 .f32) (K : PUnit → sProp 𝕄) :
    iprop(owns (c : Thread nD τ) a1 fullShare x0 ∗ owns (c : Thread nD τ) a2 fullShare x1
        ∗ (∃ d, owns (c : Thread nD τ) a3 fullShare d)
        ∗ (iprop(owns (c : Thread nD τ) a1 fullShare x0 ∗ owns (c : Thread nD τ) a2 fullShare x1
            ∗ owns (c : Thread nD τ) a3 fullShare (outBlk x0 x1)) -∗ K ⟨⟩))
      ⊢ wp frame (wpE (defs₀ (F := F)) Variants.none c none) E (cc1__combine_kernel i a1 h1 a2 h2 a3 h3) K := by
  simp only [cc1__combine_kernel_eq_skeleton]; unfold cc1__combine_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The region's proof data -/

/-- On core `c`: the arrays as the region finds them; after the body at point `t` each input's buffer at its block and
    the output's at `outBlk` of the input blocks; the invariant is the scoped rest and the generator register,
    untouched; nothing owed. The array the two input windows share is held half by each; the output's whole. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => outBlk (blk V c 0 t) (blk V c 1 t)
  Φ _ := Pipeline.ΦA spec1 c
  q w := match w with
    | ⟨0, _⟩ => fullShare.left
    | ⟨1, _⟩ => fullShare.right
    | ⟨2, _⟩ => fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) :
    (dat V c).after 2 t = outBlk (blk V c 0 t) (blk V c 1 t) := by dsimp only [dat]

theorem share_0 (c : Dev nD) : (dat V c).share 0 = fullShare.left := by unfold Dat.share; rfl
theorem share_1 (c : Dev nD) : (dat V c).share 1 = fullShare.right := by unfold Dat.share; rfl
theorem share_2 (c : Dev nD) : (dat V c).share 2 = fullShare := by unfold Dat.share; rfl

theorem before_0 (c : Dev nD) (t : Fin cfg1.N) (d) : (dat V c).before 0 t d = blk V c 0 t :=
  found_0_of V (dat V c) (A_eq V c 0) (after_0 V c) t d
theorem before_1 (c : Dev nD) (t : Fin cfg1.N) (d) : (dat V c).before 1 t d = blk V c 1 t :=
  found_1_of V (dat V c) (A_eq V c 1) (after_1 V c) t d

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any point: the inputs' buffers hold their blocks, so the triple applies; the invariant and what the
    core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch rule's body obligation, at every point. -/
theorem body_obligation (c : Dev nD) : BodyObligation (dat (F := F) V c) (defs₀ (F := F)) Variants.none () Set.univ := fun t => by
  rw [bigSep_W1, bigSep_W1]
  exact sound_body V c t

end Cert.KernelIdeal.Comb

end
-- ==== Proof.Halves.lean ====
/-
  The second kernel region's arrays among the core's unscoped buffers, when two windows share an array.

  The region's input windows 0 and 1 both view the array main_v1; its output window 2 views main_v2. The core
  therefore holds main_v1 in two halves of the full share — the left half for window 0, the right half for window 1 —
  and main_v2 whole. At the region's entry the core's one whole main_v1 is split along its share into the two halves;
  at its exit, an input window's array never having been written, the two halves hold what was split and join back
  into the whole, while main_v2 comes back at what the write-backs left in it.
-/
import proofs.«171172_j23519240913301_1_alg».proof.Proof.Comb
set_option maxRecDepth 16384
noncomputable section
namespace Cert.KernelIdeal.Halves
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! ## The region's arrays, as buffers -/

/-- The windows' arrays are the two buffers main_v1 (windows 0 and 1) and main_v2 (window 2). -/
theorem arrs_eq : (Finset.univ.image (Pipeline.arrRef spec1) : Finset (Ref sig .tc)) = {main_v1, main_v2} := by decide

/-- Both are unscoped buffers. -/
theorem arrs_unscoped : (Finset.univ.image (Pipeline.arrRef spec1) : Finset (Ref sig .tc))
    ⊆ Finset.univ.filter fun b : Ref sig .tc => ¬ b.isScoped := by decide

/-- A core's unscoped buffers at contents `W` are the two buffers behind the windows' arrays and the rest. -/
theorem bufs_split (c : Dev nD) (W : (b : Ref sig .tc) → Buf (Elt F) ((c : Thread nD τ).loc b)) :
    (unscopedBufs c W : sProp 𝕄)
      = iprop((((c : Thread nD τ).loc main_v1) ↦{fullShare} W main_v1) ∗ (((c : Thread nD τ).loc main_v2) ↦{fullShare} W main_v2)
          ∗ Pipeline.unscopedRest (Ix := Unit) (Name := ℕ) (U := UR sig nD τ) (Lvl := ℕ) spec1 c W) := by
  unfold unscopedBufs Pipeline.unscopedRest
  rw [bigSep_sdiff_split arrs_unscoped, arrs_eq, bigSep_insert (by decide), bigSep_singleton]
  exact equiv_iff.mp ⟨BI.sep_assoc, BI.sep_assoc'⟩

/-- The region's arrays at contents `G`, window by window: main_v1 at the left half of the full share for window 0
    and at the right half for window 1, main_v2 at the full share; each array is its whole buffer. -/
theorem arrays_halves (c : Dev nD)
    (G : (w : Fin cfg1.W) → Buf (Elt F) ((cfg1.win w).arr.view.loc (c : Thread nD τ))) :
    ((Comb.dat V c).arrays G : sProp 𝕄)
      = iprop((((c : Thread nD τ).loc main_v1) ↦{fullShare.left} G 0) ∗ (((c : Thread nD τ).loc main_v1) ↦{fullShare.right} G 1)
          ∗ (((c : Thread nD τ).loc main_v2) ↦{fullShare} G 2)) := by
  unfold Dat.arrays
  rw [bigSep_W1, Comb.share_0, Comb.share_1, Comb.share_2]
  -- windows 0 and 1 view one array, so one rewriting serves both
  rw [show (cfg1.win 0).arr.view.set = Finset.univ from (arr_whole1 0).set_eq_univ,
    show (cfg1.win 2).arr.view.set = Finset.univ from (arr_whole1 2).set_eq_univ]

/-- ENTRY: the core's unscoped buffers at contents V c are the region's arrays at their entry contents — main_v1 in two halves, one per input window, main_v2 whole — and the unscoped buffers that are no window's array. -/
theorem arrays_of_bufs (c : Dev nD) :
    (unscopedBufs c (V c) : sProp 𝕄)
      ⊢ iprop((Comb.dat V c).arrays (fun w => (Comb.dat V c).arrAt w 0)
          ∗ Pipeline.unscopedRest (Ix := Unit) (Name := ℕ) (U := UR sig nD τ) (Lvl := ℕ) spec1 c (V c)) := by
  rw [bufs_split, arrays_halves]
  -- at entry every array holds what the core's buffer holds
  show iprop((((c : Thread nD τ).loc main_v1) ↦{fullShare} V c main_v1) ∗ (((c : Thread nD τ).loc main_v2) ↦{fullShare} V c main_v2)
      ∗ Pipeline.unscopedRest (Ix := Unit) (Name := ℕ) (U := UR sig nD τ) (Lvl := ℕ) spec1 c (V c))
    ⊢ iprop(((((c : Thread nD τ).loc main_v1) ↦{fullShare.left} V c main_v1) ∗ (((c : Thread nD τ).loc main_v1) ↦{fullShare.right} V c main_v1)
        ∗ (((c : Thread nD τ).loc main_v2) ↦{fullShare} V c main_v2))
      ∗ Pipeline.unscopedRest (Ix := Unit) (Name := ℕ) (U := UR sig nD τ) (Lvl := ℕ) spec1 c (V c))
  iintro ⟨H1, H2, Hr⟩
  -- main_v1 along its share
  ihave H1 := (pointsTo_share (PosShare.mem_left_op_right fullShare)).1 $$ H1
  icases H1 with ⟨Hl, Hrt⟩
  isplitr [Hr]
  · isplitl [Hl]; · iexact Hl
    isplitl [Hrt]; · iexact Hrt
    iexact H2
  iexact Hr

/-- EXIT: the arrays at what the region leaves (the two halves of main_v1 as entered, main_v2 at the write-backs' result) and the rest are the core's unscoped buffers at any contents V' that has main_v2 at that result and agrees with V c elsewhere. -/
theorem bufs_of_arrays (c : Dev nD) (V' : (b : Ref sig .tc) → Buf (Elt F) ((c : Thread nD τ).loc b))
    (hout : V' (Pipeline.arrRef spec1 2) = (Comb.dat V c).arrAt 2 cfg1.N)
    (hrest : ∀ b : Ref sig .tc, b ≠ main_v2 → V' b = V c b) :
    iprop((Comb.dat V c).arrays (fun w => (Comb.dat V c).arrAt w cfg1.N)
        ∗ Pipeline.unscopedRest (Ix := Unit) (Name := ℕ) (U := UR sig nD τ) (Lvl := ℕ) spec1 c (V c))
      ⊢ (unscopedBufs c V' : sProp 𝕄) := by
  -- an input window's array is never written: both halves of main_v1 hold what V' holds there
  have h0 : (Comb.dat V c).arrAt 0 cfg1.N = V' main_v1 :=
    ((Comb.dat V c).arrAt_in 0 rfl cfg1.N).trans (hrest main_v1 (by decide)).symm
  have h1 : (Comb.dat V c).arrAt 1 cfg1.N = V' main_v1 :=
    ((Comb.dat V c).arrAt_in 1 rfl cfg1.N).trans (hrest main_v1 (by decide)).symm
  have h2 : (Comb.dat V c).arrAt 2 cfg1.N = V' main_v2 := hout.symm
  -- off the arrays V' is V c
  have hr : (Pipeline.unscopedRest (Ix := Unit) (Name := ℕ) (U := UR sig nD τ) (Lvl := ℕ) spec1 c (V c) : sProp 𝕄)
      = Pipeline.unscopedRest (Ix := Unit) (Name := ℕ) (U := UR sig nD τ) (Lvl := ℕ) spec1 c V' := by
    unfold Pipeline.unscopedRest
    refine bigSep_congr fun b hb => ?_
    have hb' : b ≠ main_v2 := fun h => (Finset.mem_sdiff.mp hb).2 (by rw [h, arrs_eq]; decide)
    rw [hrest b hb']
  rw [bufs_split, arrays_halves, hr]
  simp only [h0, h1, h2]
  iintro ⟨⟨Hl, Hrt, H2⟩, Hr⟩
  -- the two halves of main_v1 make the whole
  ihave H1 := (pointsTo_share (PosShare.mem_left_op_right fullShare)).2 $$ [Hl Hrt]
  · isplitl [Hl]; · iexact Hl
    iexact Hrt
  isplitl [H1]; · iexact H1
  isplitl [H2]; · iexact H2
  iexact Hr
end Cert.KernelIdeal.Halves
end
-- ==== Proof.Whole.lean ====
/-
  The whole program, from launch to return: a reshape of the bias on the host, then the two kernel regions.

  The core's unscoped buffers are followed through the three items of the program as one valuation per boundary:
  at launch they hold the memory; after the host reshape, the same with the bias row written; after the first
  region, its output array (the linear layer's V) at what its 125 write-backs leave and everything else as entered;
  after the second region, its output array at what its 250 write-backs leave. Each region is entered from the
  buffers at the boundary before it and left at the boundary after it; the second region reads ONE array through
  two windows, so at its entry that array is dealt in two halves and at its exit the halves are joined again. The
  run ends with every unscoped buffer at the last valuation: the frame claim and the value claim are both read off
  it.
-/
import proofs.«171172_j23519240913301_1_alg».proof.Proof.Lin
import proofs.«171172_j23519240913301_1_alg».proof.Proof.Comb
import proofs.«171172_j23519240913301_1_alg».proof.Proof.Halves
import proofs.«171172_j23519240913301_1_alg».proof.Proof.Gen.KernelIdeal.Regions

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m (c, b)
/-- After the host reshape (the first region's entry). -/
abbrev W1 : Dev nD → Valuation τ sig (Elt F) := fun c => StableHlo.after hostOps0 (W0 m c)
/-- The same read at the core's references. -/
abbrev V1 : (c : Dev nD) → (b : Ref sig .tc) → Buf (Elt F) ((c : Thread nD τ).loc b) := fun c b => W1 m c b
/-- At the first region's exit: its arrays at what the pipeline leaves (the inputs as entered, the output's write-backs
    folded), every other buffer as entered. -/
def W2 (c : Dev nD) : Valuation τ sig (Elt F) :=
  Pipeline.withArrays spec0 c (W1 m c) fun w => (Lin.dat (V1 m) c).arrAt w cfg0.N
theorem W2_arr (c : Dev nD) (w : Fin cfg0.W) :
    W2 m c (Proc.devRef .tc (Pipeline.arrRef spec0 w)) = (Lin.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the core's references (the second region's entry). -/
abbrev V2 : (c : Dev nD) → (b : Ref sig .tc) → Buf (Elt F) ((c : Thread nD τ).loc b) := fun c b => W2 m c b
theorem exit0_arr (c : Dev nD) (w : Fin cfg0.W) : (Lin.dat (V1 m) c).arrAt w cfg0.N = V2 m c (Pipeline.arrRef spec0 w) :=
  (W2_arr m c w).symm
theorem exit0_rest (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the second region's exit: its output array at what the pipeline leaves, every other buffer as entered (its two
    input windows read one array, which no write-back touches). -/
def W3 (c : Dev nD) : Valuation τ sig (Elt F) :=
  Function.update (W2 m c) main_v2 (show Buf (Elt F) ((c : Thread nD τ).loc main_v2) from (Comb.dat (V2 m) c).arrAt 2 cfg1.N)
/-- The same read at the core's references. -/
abbrev V3 : (c : Dev nD) → (b : Ref sig .tc) → Buf (Elt F) ((c : Thread nD τ).loc b) := fun c b => W3 m c b
theorem W3_out (c : Dev nD) : W3 m c (Proc.devRef .tc main_v2) = (Comb.dat (V2 m) c).arrAt 2 cfg1.N := by
  unfold W3; exact Function.update_self ..
theorem W3_of_ne (c : Dev nD) (b : Ref sig .tc) (hb : b ≠ main_v2) : W3 m c (Proc.devRef .tc b) = W2 m c (Proc.devRef .tc b) := by
  unfold W3; exact Function.update_of_ne (StableHlo.devRef_ne_of_ne hb) ..

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Lin.dat (V1 m) c
  | ⟨1, _⟩ => fun c => Comb.dat (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and that it owes nothing. -/
abbrev R (c : Dev nD) : sProp 𝕄 := iprop((∃ r, prngReg c r) ∗ ∃ W, owes (c : Thread nD τ) (0 : CellTallies nD τ sig Unit) W)
/-- The host stretch as an item: it runs over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the generator
    register at some state. -/
abbrev Tₙ (c : Dev nD) : sProp 𝕄 := iprop(StableHlo.held (c : Thread nD τ) (Pipeline.ucRefs τ sig) (W3 m c) ∗ ∃ r, prngReg c r)

/-! ## The regions as items -/

set_option backward.isDefEq.respectTransparency.types false in
/-- The first region: entered from every unscoped buffer at `W1`, left at `W2`. Its arrays are split out of the unscoped
    buffers and put back at the exit contents; the generator register goes into the region's invariant and comes out;
    nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Lin.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W2`, left at `W3`. The array its two input windows read is
    dealt in halves at the entry and joined at the exit; the rest as for the first region. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Comb.body_obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Halves.arrays_of_bufs (V2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
          ∗ Pipeline.unscopedRest (Ix := Unit) (Name := ℕ) (U := UR sig nD τ) (Lvl := ℕ) spec1 c (V2 m c))
        ⊢ (unscopedBufs c (V3 m c) : sProp 𝕄) :=
      Halves.bufs_of_arrays (V2 m) c (V3 m c) (W3_out m c) (fun b hb => W3_of_ne m c b hb)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as items, and the launch -/

/-- The program's three items in order: the host stretch from the launch contents, then the two regions. -/
abbrev segs : List (Pipeline.Seg (pcfgs (F := F)) adm (pdats m) () defs₀ 𝒱₀ L lv) :=
  [ .host (hseg hostOps0 hostOps0_sub hostOps0_fresh (W0 m)),
    .region (reg0 m),
    .region (reg1 m) ]
/-- The program IS the run of the items. -/
theorem main_run (c : Dev nD) : main (F := F) c = Pipeline.Seg.run (segs m) := (main_chain c).trans (by chain_rfl)

set_option backward.isDefEq.respectTransparency.types false in
/-- THE RUN: from any memory with zero counters, every weakly fair execution of the program terminates, nothing faulting,
    and every final state holds every unscoped buffer at the last boundary's contents `W3`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-! ## What the last valuation holds at the arguments: no item writes one -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((Lin.dat (V1 m) c).arrAt_in 0 rfl _).trans (Lin.A_eq (V1 m) c 0))
    _ = m ((c : Thread nD τ).loc main_arg0) := V1_of m c main_arg0 (by decide)

theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := (W2_arr m c 1).trans (((Lin.dat (V1 m) c).arrAt_in 1 rfl _).trans (Lin.A_eq (V1 m) c 1))
    _ = m ((c : Thread nD τ).loc main_arg1) := V1_of m c main_arg1 (by decide)

theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = m ((c : Thread nD τ).loc main_arg2) := V1_of m c main_arg2 (by decide)

/-- THE FRAME: every weakly fair execution terminates, nothing faulting, and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c)⟩) (run m ρ)

end Cert.KernelIdeal.Whole

end
-- ==== Proof.LinValue.lean ====
import proofs.«171172_j23519240913301_1_alg».proof.Proof.Lin
import Idealize.ShloMosaic.Lib.Pipeline.Value
import Idealize.ShloMosaic.Lib.ValueIdx
import Idealize.ShloMosaic.PureOps.Ideal
set_option maxRecDepth 16384
noncomputable section
open scoped BigOperators
namespace Cert.KernelIdeal.LinValue
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
variable (V : (c : Dev nD) → (b : Ref sig .tc) → Buf (Elt Ideal) ((c : Thread nD τ).loc b))

/-- The linear layer with the bias given as a 1 × 2 row. -/
def linRow (X : FVec Ideal S1000000x128 .f32) (Wg : FVec Ideal S2x128 .f32) (B : FVec Ideal S1x2 .f32) : FVec Ideal S1000000x2 .f32 :=
  fun i => (∑ k : Fin 128, X (ix2 (⟨(i 0).val, (i 0).isLt⟩ : Fin 1000000) k) * Wg (ix2 (⟨(i 1).val, (i 1).isLt⟩ : Fin 2) k))
    + B (ix2 (0 : Fin 1) (⟨(i 1).val, (i 1).isLt⟩ : Fin 2))

/-- The zero offsets of a whole-buffer access. -/
theorem hz : (![0, 0] : Fin 2 → Nat) = fun _ => 0 := funext fun a => by fin_cases a <;> rfl

/-- The block index of each window at every point of the grid: the X window and the output window move one block of
    rows per point, the weight and bias windows stay on their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of the X block at point t is row 8000 t + p of X. -/
theorem blk0_apply (c : Dev nD) (t : Fin cfg0.N) (p : Fin 8000) (k : Fin 128) (i : S1000000x128.Idx)
    (h0 : (i 0).val = 8000 * t.val + p.val) (h1 : (i 1).val = k.val) :
    (Lin.blk V c 0 t : Vec Ideal S8000x128 .f32) (ix2 p k) = (V c main_arg0 : FVec Ideal S1000000x128 .f32) i := by
  obtain ⟨e0, e1, -⟩ := idx_facts t
  show V c main_arg0 (((cfg0.win 0).blk t).view.emb (ix2 p k)) = V c main_arg0 i
  congr 1
  funext a; apply Fin.ext
  match a with
  | ⟨0, _⟩ => show win0_0.index t (0 : Fin 2) * 8000 + 1 * p.val = (i 0).val; rw [e0, h0]; omega
  | ⟨1, _⟩ => show win0_0.index t (1 : Fin 2) * 128 + 1 * k.val = (i 1).val; rw [e1, h1]; omega

/-- The weight block at every point is the whole weight array. -/
theorem blk1_apply (c : Dev nD) (t : Fin cfg0.N) (j : Fin 2) (k : Fin 128) :
    (Lin.blk V c 1 t : Vec Ideal S2x128 .f32) (ix2 j k) = (V c main_arg1 : FVec Ideal S2x128 .f32) (ix2 j k) := by
  obtain ⟨-, -, e0, e1, -⟩ := idx_facts t
  show V c main_arg1 (((cfg0.win 1).blk t).view.emb (ix2 j k)) = V c main_arg1 (ix2 j k)
  congr 1
  funext a; apply Fin.ext
  match a with
  | ⟨0, _⟩ => show win0_1.index t (0 : Fin 2) * 2 + 1 * j.val = j.val; rw [e0]; omega
  | ⟨1, _⟩ => show win0_1.index t (1 : Fin 2) * 128 + 1 * k.val = k.val; rw [e1]; omega

/-- The bias block at every point is the whole bias row. -/
theorem blk2_apply (c : Dev nD) (t : Fin cfg0.N) (z : Fin 1) (j : Fin 2) :
    (Lin.blk V c 2 t : Vec Ideal S1x2 .f32) (ix2 z j) = (V c main_v0 : FVec Ideal S1x2 .f32) (ix2 z j) := by
  obtain ⟨-, -, -, -, e0, e1, -⟩ := idx_facts t
  show V c main_v0 (((cfg0.win 2).blk t).view.emb (ix2 z j)) = V c main_v0 (ix2 z j)
  congr 1
  funext a; apply Fin.ext
  match a with
  | ⟨0, _⟩ => show win0_2.index t (0 : Fin 2) * 1 + 1 * z.val = z.val; rw [e0]; omega
  | ⟨1, _⟩ => show win0_2.index t (1 : Fin 2) * 2 + 1 * j.val = j.val; rw [e1]; omega

/-- The body's value at one place of the block written back at point t is the linear layer at the array index that place lands on:
    row 8000 t + p, the same column. -/
theorem out_apply (hpay : ∀ (x : Vec Ideal S8000x128 .f32) (w : Vec Ideal S2x128 .f32) (b : Vec Ideal S1x2 .f32) (p : Fin 8000) (j : Fin 2),
      k0_pay1 (F := Ideal) x w b (ix2 p j) = (∑ k : Fin 128, x (ix2 p k) * w (ix2 j k)) + b (ix2 (0 : Fin 1) j))
    (c : Dev nD) (t : Fin cfg0.N) (p : Fin 8000) (j : Fin 2) (i : S1000000x2.Idx)
    (h0 : (i 0).val = 8000 * t.val + p.val) (h1 : (i 1).val = j.val) :
    k0_pay1 (F := Ideal) (Lin.blk V c 0 t) (Lin.blk V c 1 t) (Lin.blk V c 2 t) (ix2 p j)
      = linRow (V c main_arg0) (V c main_arg1) (V c main_v0) i := by
  have hj : (⟨(i 1).val, (i 1).isLt⟩ : Fin 2) = j := Fin.ext h1
  unfold linRow
  rw [hpay, hj, blk2_apply V c t 0 j]
  congr 1
  refine Finset.sum_congr rfl fun k _ => ?_
  rw [blk0_apply V c t p k (ix2 (⟨(i 0).val, (i 0).isLt⟩ : Fin 1000000) k) h0 rfl, blk1_apply V c t j k]

/-- The same at any place q of the block. -/
theorem out_at (hpay : ∀ (x : Vec Ideal S8000x128 .f32) (w : Vec Ideal S2x128 .f32) (b : Vec Ideal S1x2 .f32) (p : Fin 8000) (j : Fin 2),
      k0_pay1 (F := Ideal) x w b (ix2 p j) = (∑ k : Fin 128, x (ix2 p k) * w (ix2 j k)) + b (ix2 (0 : Fin 1) j))
    (c : Dev nD) (t : Fin cfg0.N) (q : S8000x2.Idx) (i : S1000000x2.Idx)
    (h0 : (i 0).val = 8000 * t.val + (q 0).val) (h1 : (i 1).val = (q 1).val) :
    k0_pay1 (F := Ideal) (Lin.blk V c 0 t) (Lin.blk V c 1 t) (Lin.blk V c 2 t) q
      = linRow (V c main_arg0) (V c main_arg1) (V c main_v0) i := by
  rw [eq_ix2 q]
  exact out_apply V hpay c t (q 0) (q 1) i h0 h1

/-- What point t writes back is its block of the linear layer of the arrays the region entered with. -/
theorem flushed_eq (hpay : ∀ (x : Vec Ideal S8000x128 .f32) (w : Vec Ideal S2x128 .f32) (b : Vec Ideal S1x2 .f32) (p : Fin 8000) (j : Fin 2),
      k0_pay1 (F := Ideal) x w b (ix2 p j) = (∑ k : Fin 128, x (ix2 p k) * w (ix2 j k)) + b (ix2 (0 : Fin 1) j))
    (c : Dev nD) (t : Fin cfg0.N) :
    (Lin.dat (F := Ideal) V c).flushed 3 t
      = ((cfg0.win 3).blk t).view.read (Elt Ideal) (linRow (V c main_arg0) (V c main_arg1) (V c main_v0)) := by
  rw [show (Lin.dat (F := Ideal) V c).flushed 3 t = (cfg0.win 3).cut (cfg0.grid.coords t) ((Lin.dat (F := Ideal) V c).after 3 t) from rfl, Lin.after_3]
  unfold Lin.outBlk
  rw [View.canon_unit_zero hz]
  simp only [View.ld_unit_zero (S := S8000x128) hz, View.ld_unit_zero (S := S2x128) hz, View.ld_unit_zero (S := S1x2) hz]
  obtain ⟨-, -, -, -, -, -, e0, e1⟩ := idx_facts t
  funext y
  show k0_pay1 (F := Ideal) (Lin.blk V c 0 t) (Lin.blk V c 1 t) (Lin.blk V c 2 t) ((cfg0.win 3).xinj (cfg0.grid.coords t) y)
    = linRow (V c main_arg0) (V c main_arg1) (V c main_v0) (((cfg0.win 3).blk t).view.emb y)
  refine out_at V hpay c t ((cfg0.win 3).xinj (cfg0.grid.coords t) y) (((cfg0.win 3).blk t).view.emb y) ?_ ?_
  · show win0_3.index t (0 : Fin 2) * 8000 + 1 * (y 0).val = 8000 * t.val + (y 0).val; rw [e0]; omega
  · show win0_3.index t (1 : Fin 2) * 2 + 1 * (y 1).val = (y 1).val; rw [e1]; omega

/-- An index of the output array is in point t's block iff each coordinate is in the block's range on its axis. -/
theorem mem_blk (t : Fin cfg0.N) (i : S1000000x2.Idx) :
    i ∈ ((cfg0.win 3).blk t).view.set ↔ ∀ a : Fin 2, win0_3.index t a * S8000x2.size a ≤ (i a).val ∧ (i a).val < win0_3.index t a * S8000x2.size a + S8000x2.size a := by
  show i ∈ ((View.whole main_v1).slice (win0_3.rect t)).set ↔ _
  rw [View.set_slice_whole, Rect.mem_set_unit]
  exact Iff.rfl

/-- Row r of the output is written back by point r / 8000: the 125 blocks of 8000 rows tile the million rows. -/
theorem cover (i : S1000000x2.Idx) : ∃ t : Fin cfg0.N, (cfg0.win 3).flush t = true ∧ i ∈ ((cfg0.win 3).blk t).view.set := by
  have hi0 : (i 0).val < 1000000 := (i 0).isLt
  have hi1 : (i 1).val < 2 := (i 1).isLt
  have hN : grid0.N = 125 := N_0
  have ht : (i 0).val / 8000 < grid0.N := by omega
  obtain ⟨-, -, -, -, -, -, e0, e1⟩ := idx_facts ⟨(i 0).val / 8000, ht⟩
  refine ⟨⟨(i 0).val / 8000, ht⟩, flush0_3 _, ?_⟩
  rw [mem_blk]
  intro a
  match a with
  | ⟨0, _⟩ =>
    show win0_3.index ⟨(i 0).val / 8000, ht⟩ (0 : Fin 2) * 8000 ≤ (i 0).val ∧ (i 0).val < win0_3.index ⟨(i 0).val / 8000, ht⟩ (0 : Fin 2) * 8000 + 8000
    rw [e0]; show (i 0).val / 8000 * 8000 ≤ (i 0).val ∧ (i 0).val < (i 0).val / 8000 * 8000 + 8000; omega
  | ⟨1, _⟩ =>
    show win0_3.index ⟨(i 0).val / 8000, ht⟩ (1 : Fin 2) * 2 ≤ (i 1).val ∧ (i 1).val < win0_3.index ⟨(i 0).val / 8000, ht⟩ (1 : Fin 2) * 2 + 2
    rw [e1]; omega

/-- After the region, the output array is the linear layer of the three arrays the region entered with. hpay is the body's arithmetic read at one index. -/
theorem final (hpay : ∀ (x : Vec Ideal S8000x128 .f32) (w : Vec Ideal S2x128 .f32) (b : Vec Ideal S1x2 .f32) (p : Fin 8000) (j : Fin 2),
      k0_pay1 (F := Ideal) x w b (ix2 p j) = (∑ k : Fin 128, x (ix2 p k) * w (ix2 j k)) + b (ix2 (0 : Fin 1) j))
    (c : Dev nD) :
    (Lin.dat (F := Ideal) V c).arrAt 3 cfg0.N = linRow (V c main_arg0) (V c main_arg1) (V c main_v0) :=
  (Lin.dat (F := Ideal) V c).arrAt_eq_of_cover 3 (linRow (V c main_arg0) (V c main_arg1) (V c main_v0))
    (fun t _ => flushed_eq V hpay c t) cover
end Cert.KernelIdeal.LinValue
end
-- ==== Proof.Spec.lean ====
/-
  The mathematics both programs compute, stated once over the argument arrays, index by index.

  A linear layer on every row: V[r, j] = (the sum over k < 128 of X[r, k] * Wg[j, k]) + bg[j], for r < 1000000 and j < 2.
  Then every row is combined with the two rows that follow it on the circle of 1000000 rows, weighted by its own two
  entries: out[r, j] = V[r, 0] * V[(r + 1) mod 1000000, j] + V[r, 1] * V[(r + 2) mod 1000000, j].
-/
import Idealize.ShloMosaic.PureOps.Ideal
import Idealize.ShloMosaic.Lib.ValueIdx

noncomputable section

open scoped BigOperators

namespace Cert.ShiftSpec

open Idealize.ShloMosaic Idealize.ShloMosaic.ValueIdx

/-- Row `r` moved `d` places forward on the circle of 1000000 rows. -/
def fwd (d : Nat) (r : Fin 1000000) : Fin 1000000 := ⟨(r.val + d) % 1000000, Nat.mod_lt _ (by decide)⟩

theorem fwd_val (d : Nat) (r : Fin 1000000) : (fwd d r).val = (r.val + d) % 1000000 := rfl

/-- One entry of the linear layer: row `r` of `X` against row `j` of `Wg`, plus the bias `bg[j]`. -/
def linAt (X : FVec Ideal ⟨2, ![1000000, 128]⟩ .f32) (Wg : FVec Ideal ⟨2, ![2, 128]⟩ .f32) (bg : FVec Ideal ⟨1, ![2]⟩ .f32)
    (r : Fin 1000000) (j : Fin 2) : Ideal .f32 :=
  (∑ k : Fin 128, X (ix2 r k) * Wg (ix2 j k)) + bg (ix1 j)

/-- The linear layer as a whole array. -/
def lin (X : FVec Ideal ⟨2, ![1000000, 128]⟩ .f32) (Wg : FVec Ideal ⟨2, ![2, 128]⟩ .f32) (bg : FVec Ideal ⟨1, ![2]⟩ .f32) :
    FVec Ideal ⟨2, ![1000000, 2]⟩ .f32 :=
  fun i => linAt X Wg bg ⟨(i 0).val, (i 0).isLt⟩ ⟨(i 1).val, (i 1).isLt⟩

theorem lin_ix2 (X : FVec Ideal ⟨2, ![1000000, 128]⟩ .f32) (Wg : FVec Ideal ⟨2, ![2, 128]⟩ .f32) (bg : FVec Ideal ⟨1, ![2]⟩ .f32)
    (r : Fin 1000000) (j : Fin 2) : lin X Wg bg (ix2 r j) = linAt X Wg bg r j := rfl

/-- One entry of the combination: row `r` weighted against the next two rows on the circle. -/
def combAt (V : FVec Ideal ⟨2, ![1000000, 2]⟩ .f32) (r : Fin 1000000) (j : Fin 2) : Ideal .f32 :=
  V (ix2 r 0) * V (ix2 (fwd 1 r) j) + V (ix2 r 1) * V (ix2 (fwd 2 r) j)

/-- The combination as a whole array. -/
def comb (V : FVec Ideal ⟨2, ![1000000, 2]⟩ .f32) : FVec Ideal ⟨2, ![1000000, 2]⟩ .f32 :=
  fun i => combAt V ⟨(i 0).val, (i 0).isLt⟩ ⟨(i 1).val, (i 1).isLt⟩

theorem comb_ix2 (V : FVec Ideal ⟨2, ![1000000, 2]⟩ .f32) (r : Fin 1000000) (j : Fin 2) : comb V (ix2 r j) = combAt V r j := rfl

/-- What both programs return, as one function of the three argument arrays. -/
def result (X : FVec Ideal ⟨2, ![1000000, 128]⟩ .f32) (Wg : FVec Ideal ⟨2, ![2, 128]⟩ .f32) (bg : FVec Ideal ⟨1, ![2]⟩ .f32) :
    FVec Ideal ⟨2, ![1000000, 2]⟩ .f32 :=
  comb (lin X Wg bg)

end Cert.ShiftSpec

end
-- ==== Proof.CombValue.lean ====
/-
  The second kernel region, all 250 grid points together: what the output array holds after every write-back.

  Point t works on rows 4000 t … 4000 t + 3999 of the array V the region enters with, and also sees the eight rows that
  start the next block on the circle of 250 blocks. The body combines local row p with the rows one and two places after
  it: inside the block while they exist, else among those head rows. Row 4000 t + p moved d places forward on the circle
  of 1000000 rows is exactly that row — inside the block when p + d < 4000, else row p + d - 4000 of block (t + 1) mod 250
  — so point t writes back block t of the circular two-row combination of V; the 250 blocks tile the array.
-/
import proofs.«171172_j23519240913301_1_alg».proof.Proof.Comb
import proofs.«171172_j23519240913301_1_alg».proof.Proof.Spec
import Idealize.ShloMosaic.Lib.Pipeline.Value
import Idealize.ShloMosaic.Lib.ValueIdx
import Idealize.ShloMosaic.PureOps.Ideal
set_option maxRecDepth 16384
noncomputable section
open scoped BigOperators
namespace Cert.KernelIdeal.CombValue
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
variable (V : (c : Dev nD) → (b : Ref sig .tc) → Buf (Elt Ideal) ((c : Thread nD τ).loc b))

/-! ## The index maps, decided over the grid -/

/-- The index maps at each of the 250 points: the block worked on and the output block are block t; the head
    rows are 8-row block ((t + 1) mod 250) · 500, that is, they start 4000-row block (t + 1) mod 250. -/
theorem idx_facts : ∀ t : Fin cfg1.N,
    win1_0.index t (0 : Fin 2) = t.val ∧ win1_0.index t (1 : Fin 2) = 0
    ∧ win1_1.index t (0 : Fin 2) = ((t.val + 1) % 250) * 500 ∧ win1_1.index t (1 : Fin 2) = 0
    ∧ win1_2.index t (0 : Fin 2) = t.val ∧ win1_2.index t (1 : Fin 2) = 0 :=
  (by decide +kernel : ∀ t : Fin grid1.N, _)

/-! ## The two input blocks as rows of the array -/

/-- The block point t works on is rows 4000 t … 4000 t + 3999 of V: its entry at local index x is V's at any index k
    whose row is 4000 t + (x's row) and whose column is x's. -/
theorem blk0_apply (c : Dev nD) (t : Fin cfg1.N) (x : S4000x2.Idx) (k : S1000000x2.Idx)
    (hk0 : (k 0).val = 4000 * t.val + (x 0).val) (hk1 : (k 1).val = (x 1).val) :
    (Comb.blk V c 0 t : Vec Ideal S4000x2 .f32) x = (V c main_v1 : S1000000x2.Idx → Elt Ideal .f32) k := by
  obtain ⟨e0, e1, -⟩ := idx_facts t
  unfold Comb.blk
  rw [View.read_apply]
  show V c main_v1 _ = V c main_v1 _
  congr 1
  funext a
  apply Fin.ext
  match a with
  | ⟨0, _⟩ => show win1_0.index t 0 * 4000 + 1 * (x 0).val = (k 0).val; rw [e0, hk0]; omega
  | ⟨1, _⟩ => show win1_0.index t 1 * 2 + 1 * (x 1).val = (k 1).val; rw [e1, hk1]; omega

/-- The head rows point t sees are the first eight rows of block (t + 1) mod 250 of V, rows
    ((t + 1) mod 250) · 4000 …: its entry at local index x is V's at any index k of that row and x's column. -/
theorem blk1_apply (c : Dev nD) (t : Fin cfg1.N) (x : S8x2.Idx) (k : S1000000x2.Idx)
    (hk0 : (k 0).val = ((t.val + 1) % 250) * 4000 + (x 0).val) (hk1 : (k 1).val = (x 1).val) :
    (Comb.blk V c 1 t : Vec Ideal S8x2 .f32) x = (V c main_v1 : S1000000x2.Idx → Elt Ideal .f32) k := by
  obtain ⟨-, -, e0, e1, -⟩ := idx_facts t
  unfold Comb.blk
  rw [View.read_apply]
  show V c main_v1 _ = V c main_v1 _
  congr 1
  funext a
  apply Fin.ext
  match a with
  | ⟨0, _⟩ => show win1_1.index t 0 * 8 + 1 * (x 0).val = (k 0).val; rw [e0, hk0]; omega
  | ⟨1, _⟩ => show win1_1.index t 1 * 2 + 1 * (x 1).val = (k 1).val; rw [e1, hk1]; omega

/-! ## One entry of what a point writes back -/

theorem hz : (![0, 0] : Fin 2 → Nat) = fun _ => 0 := funext fun a => by fin_cases a <;> rfl

/-- The body's value at local index x of point t is the circular combination of the array at the index k that x
    names: for a block v that is rows 4000 t … of an array A and head rows h that are the rows starting block
    (t + 1) mod 250 of A. Row 4000 t + p moved d ≤ 2 places forward on the circle is row 4000 t + p + d of the block
    while p + d < 4000; past the block's end it is row p + d - 4000 (0 or 1) of the next block on the circle, which for
    the last block is the first. -/
theorem point_eq
    (ahead : Nat → Vec Ideal S4000x2 .f32 → Vec Ideal S8x2 .f32 → Fin 4000 → Fin 2 → Ideal .f32)
    (hahead : ∀ d v h p j, ahead d v h p j = if hp : p.val + d < 4000 then v (ix2 ⟨p.val + d, hp⟩ j) else h (ix2 ⟨(p.val + d - 4000) % 8, Nat.mod_lt _ (by decide)⟩ j))
    (hpay : ∀ (v : Vec Ideal S4000x2 .f32) (h : Vec Ideal S8x2 .f32) (p : Fin 4000) (j : Fin 2),
      k1_pay1 (F := Ideal) v h (ix2 p j) = v (ix2 p 0) * ahead 1 v h p j + v (ix2 p 1) * ahead 2 v h p j)
    (A : FVec Ideal ⟨2, ![1000000, 2]⟩ .f32) (v : Vec Ideal S4000x2 .f32) (h : Vec Ideal S8x2 .f32)
    (t : Nat) (ht : t < 250)
    (hv : ∀ (x : S4000x2.Idx) (k : S1000000x2.Idx), (k 0).val = 4000 * t + (x 0).val → (k 1).val = (x 1).val → v x = A k)
    (hh : ∀ (x : S8x2.Idx) (k : S1000000x2.Idx), (k 0).val = ((t + 1) % 250) * 4000 + (x 0).val → (k 1).val = (x 1).val → h x = A k)
    (x : S4000x2.Idx) (k : S1000000x2.Idx) (hk0 : (k 0).val = 4000 * t + (x 0).val) (hk1 : (k 1).val = (x 1).val) :
    k1_pay1 (F := Ideal) v h x = Cert.ShiftSpec.comb A k := by
  obtain ⟨p, j, rfl⟩ : ∃ (p : Fin 4000) (j : Fin 2), x = ix2 p j := ⟨x 0, x 1, eq_ix2 x⟩
  obtain ⟨r, j', rfl⟩ : ∃ (r : Fin 1000000) (j' : Fin 2), k = ix2 r j' := ⟨k 0, k 1, eq_ix2 k⟩
  have hr : r.val = 4000 * t + p.val := hk0
  obtain rfl : j' = j := Fin.ext hk1
  have hp : p.val < 4000 := p.isLt
  have key : ∀ d, d ≤ 2 → ahead d v h p j' = A (ix2 (Cert.ShiftSpec.fwd d r) j') := by
    intro d hd
    rw [hahead]
    split
    · exact hv _ _ (by show (Cert.ShiftSpec.fwd d r).val = 4000 * t + (p.val + d); rw [Cert.ShiftSpec.fwd_val, hr]; omega) rfl
    · exact hh _ _ (by show (Cert.ShiftSpec.fwd d r).val = ((t + 1) % 250) * 4000 + (p.val + d - 4000) % 8; rw [Cert.ShiftSpec.fwd_val, hr]; omega) rfl
  rw [hpay, Cert.ShiftSpec.comb_ix2, key 1 (by omega), key 2 (by omega), hv (ix2 p 0) (ix2 r 0) hr rfl, hv (ix2 p 1) (ix2 r 1) hr rfl]
  rfl

/-! ## What each point writes back, and the whole array -/

/-- Point t writes back block t of the circular combination of the array the region entered with. -/
theorem flushed_eq
    (ahead : Nat → Vec Ideal S4000x2 .f32 → Vec Ideal S8x2 .f32 → Fin 4000 → Fin 2 → Ideal .f32)
    (hahead : ∀ d v h p j, ahead d v h p j = if hp : p.val + d < 4000 then v (ix2 ⟨p.val + d, hp⟩ j) else h (ix2 ⟨(p.val + d - 4000) % 8, Nat.mod_lt _ (by decide)⟩ j))
    (hpay : ∀ (v : Vec Ideal S4000x2 .f32) (h : Vec Ideal S8x2 .f32) (p : Fin 4000) (j : Fin 2),
      k1_pay1 (F := Ideal) v h (ix2 p j) = v (ix2 p 0) * ahead 1 v h p j + v (ix2 p 1) * ahead 2 v h p j)
    (c : Dev nD) (t : Fin cfg1.N) :
    (Comb.dat (F := Ideal) V c).flushed 2 t
      = ((cfg1.win 2).blk t).view.read (Elt Ideal) (Cert.ShiftSpec.comb (V c main_v1)) := by
  rw [show (Comb.dat (F := Ideal) V c).flushed 2 t
      = (cfg1.win 2).cut (cfg1.grid.coords t) ((Comb.dat (F := Ideal) V c).after 2 t) from rfl, Comb.after_2]
  unfold Comb.outBlk
  rw [View.canon_unit_zero hz]
  simp only [View.ld_unit_zero (S := S4000x2) hz, View.ld_unit_zero (S := S8x2) hz]
  obtain ⟨-, -, -, -, e0, e1⟩ := idx_facts t
  have ht : t.val < 250 := lt_of_lt_of_eq t.isLt N_1
  funext y
  rw [View.read_apply]
  refine point_eq ahead hahead hpay (V c main_v1) (Comb.blk V c 0 t) (Comb.blk V c 1 t) t.val ht
    (fun x k => blk0_apply V c t x k) (fun x k => blk1_apply V c t x k) _ _ ?_ ?_
  · show win1_2.index t 0 * 4000 + 1 * (y 0).val = 4000 * t.val + (y 0).val
    rw [e0]; omega
  · show win1_2.index t 1 * 2 + 1 * (y 1).val = (y 1).val
    rw [e1]; omega

/-- An index of the output array is in point t's block iff each coordinate is in the block's range on its axis. -/
theorem mem_blk (t : Fin cfg1.N) (i : S1000000x2.Idx) :
    i ∈ ((cfg1.win 2).blk t).view.set ↔ ∀ a : Fin 2, win1_2.index t a * S4000x2.size a ≤ (i a).val ∧ (i a).val < win1_2.index t a * S4000x2.size a + S4000x2.size a := by
  show i ∈ ((View.whole main_v2).slice (win1_2.rect t)).set ↔ _
  rw [View.set_slice_whole, Rect.mem_set_unit]
  exact Iff.rfl

/-- The 250 blocks tile the output array: row r is in the block of point r / 4000. -/
theorem cover (i : S1000000x2.Idx) :
    ∃ t : Fin cfg1.N, (cfg1.win 2).flush t = true ∧ i ∈ ((cfg1.win 2).blk t).view.set := by
  have hi0 : (i 0).val < 1000000 := (i 0).isLt
  have hi1 : (i 1).val < 2 := (i 1).isLt
  have hN : (i 0).val / 4000 < cfg1.N := by rw [show cfg1.N = 250 from N_1]; omega
  obtain ⟨-, -, -, -, e0, e1⟩ := idx_facts ⟨(i 0).val / 4000, hN⟩
  refine ⟨⟨(i 0).val / 4000, hN⟩, flush1_2 _, ?_⟩
  rw [mem_blk]
  intro a
  match a with
  | ⟨0, _⟩ =>
    show win1_2.index ⟨(i 0).val / 4000, hN⟩ 0 * 4000 ≤ (i 0).val ∧ (i 0).val < win1_2.index ⟨(i 0).val / 4000, hN⟩ 0 * 4000 + 4000
    rw [e0]; show (i 0).val / 4000 * 4000 ≤ (i 0).val ∧ (i 0).val < (i 0).val / 4000 * 4000 + 4000; omega
  | ⟨1, _⟩ =>
    show win1_2.index ⟨(i 0).val / 4000, hN⟩ 1 * 2 ≤ (i 1).val ∧ (i 1).val < win1_2.index ⟨(i 0).val / 4000, hN⟩ 1 * 2 + 2
    rw [e1]; omega

/-- After the region, the output array is the circular two-row combination of the array the region entered with. 'ahead' is the row d places after local row p, inside the block while p + d < 4000, else among the head rows; hpay is the body's arithmetic read at one index; both are hypotheses here. -/
theorem final
    (ahead : Nat → Vec Ideal S4000x2 .f32 → Vec Ideal S8x2 .f32 → Fin 4000 → Fin 2 → Ideal .f32)
    (hahead : ∀ d v h p j, ahead d v h p j = if hp : p.val + d < 4000 then v (ix2 ⟨p.val + d, hp⟩ j) else h (ix2 ⟨(p.val + d - 4000) % 8, Nat.mod_lt _ (by decide)⟩ j))
    (hpay : ∀ (v : Vec Ideal S4000x2 .f32) (h : Vec Ideal S8x2 .f32) (p : Fin 4000) (j : Fin 2),
      k1_pay1 (F := Ideal) v h (ix2 p j) = v (ix2 p 0) * ahead 1 v h p j + v (ix2 p 1) * ahead 2 v h p j)
    (c : Dev nD) :
    (Comb.dat (F := Ideal) V c).arrAt 2 cfg1.N = Cert.ShiftSpec.comb (V c main_v1) := by
  exact (Comb.dat (F := Ideal) V c).arrAt_eq_of_cover 2 (Cert.ShiftSpec.comb (V c main_v1))
    (fun t _ => flushed_eq V ahead hahead hpay c t) cover

end Cert.KernelIdeal.CombValue
end
-- ==== Proof.Payloads.lean ====
import proofs.«171172_j23519240913301_1_alg».proof.Proof.Gen.KernelIdeal.Skeleton
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
noncomputable section
open scoped BigOperators
namespace Cert.KernelIdeal.Pay
open Idealize.ShloMosaic Idealize.ShloMosaic.ValueIdx Cert.KernelIdeal Cert.KernelIdeal.Gen

/-! ## The first kernel: a block of X against the transposed weights, plus the bias row -/

/-- The transposed weights at (k, j) are the weights at (j, k). -/
theorem transpose_w_at (w : FVec Ideal S2x128 .bf16) (k : Fin 128) (j : Fin 2) :
    transpose S128x2 [1, 0] w Facts₀.transposes_S2x128_p1_0_S128x2 (ix2 k j) = w (ix2 j k) :=
  transpose_apply [1, 0] w Facts₀.transposes_S2x128_p1_0_S128x2 (ix2 k j) (ix2 j k) (fun b => match b with
    | ⟨0, _⟩ => rfl
    | ⟨1, _⟩ => rfl)

/-- The bias row broadcast down the 8000 rows reads, at (p, j), the bias at (0, j). -/
theorem broadcast_b_at (b : FVec Ideal S1x2 .f32) (p : Fin 8000) (j : Fin 2) :
    broadcastTo S8000x2 b Facts₀.broadcasts_S1x2_S8000x2 (ix2 p j) = b (ix2 (0 : Fin 1) j) :=
  broadcastTo_apply b Facts₀.broadcasts_S1x2_S8000x2 (ix2 p j) (ix2 (0 : Fin 1) j) (fun a => match a with
    | ⟨0, _⟩ => by show 0 = if (1 : Nat) = 1 then 0 else p.val; rw [if_pos rfl]
    | ⟨1, _⟩ => by show j.val = if (2 : Nat) = 1 then 0 else j.val; rw [if_neg (by decide)])

/-- The left operand's index of the contraction keeps the output's row … -/
theorem lhs_dot_0 (i : S8000x2.Idx) (q : dot_S8000x128_S128x2_S8000x2_1_0_0_1_n_n.contr.Idx) :
    (dot_S8000x128_S128x2_S8000x2_1_0_0_1_n_n.lhsIdx i q 0).val = (i 0).val := by
  unfold DotDims.lhsIdx
  rw [dif_neg (show ¬(0 : Fin S8000x128.rank) ∈ dot_S8000x128_S128x2_S8000x2_1_0_0_1_n_n.lhsBatch by decide), dif_pos (show (0 : Fin S8000x128.rank) ∈ dot_S8000x128_S128x2_S8000x2_1_0_0_1_n_n.lhsNonContracting by decide)]
  rfl
/-- … and runs the contraction index along its columns; -/
theorem lhs_dot_1 (i : S8000x2.Idx) (q : dot_S8000x128_S128x2_S8000x2_1_0_0_1_n_n.contr.Idx) :
    (dot_S8000x128_S128x2_S8000x2_1_0_0_1_n_n.lhsIdx i q 1).val = (q ⟨0, by decide⟩).val :=
  dot_S8000x128_S128x2_S8000x2_1_0_0_1_n_n.lhsIdx_val_of_single rfl i q
/-- the right operand's index runs the contraction index along its rows … -/
theorem rhs_dot_0 (i : S8000x2.Idx) (q : dot_S8000x128_S128x2_S8000x2_1_0_0_1_n_n.contr.Idx) :
    (dot_S8000x128_S128x2_S8000x2_1_0_0_1_n_n.rhsIdx i q 0).val = (q ⟨0, by decide⟩).val :=
  dot_S8000x128_S128x2_S8000x2_1_0_0_1_n_n.rhsIdx_val_of_single rfl i q
/-- … and keeps the output's column. -/
theorem rhs_dot_1 (i : S8000x2.Idx) (q : dot_S8000x128_S128x2_S8000x2_1_0_0_1_n_n.contr.Idx) :
    (dot_S8000x128_S128x2_S8000x2_1_0_0_1_n_n.rhsIdx i q 1).val = (i 1).val := by
  unfold DotDims.rhsIdx
  rw [dif_neg (show ¬(1 : Fin S128x2.rank) ∈ dot_S8000x128_S128x2_S8000x2_1_0_0_1_n_n.rhsBatch by decide), dif_pos (show (1 : Fin S128x2.rank) ∈ dot_S8000x128_S128x2_S8000x2_1_0_0_1_n_n.rhsNonContracting by decide)]
  rfl

/-- The product into a zero accumulator at (p, j): the sum over k of the left block at (p, k) times the right at (k, j). -/
theorem matmul_at (a : FVec Ideal S8000x128 .bf16) (c : FVec Ideal S128x2 .bf16) (p : Fin 8000) (j : Fin 2) :
    matmul dot_S8000x128_S128x2_S8000x2_1_0_0_1_n_n none a c (constant (F := Ideal) S8000x2 .f32 0x00000000#32) (ix2 p j)
      = ∑ k : Fin 128, a (ix2 p k) * c (ix2 k j) := by
  simp only [matmul]
  rw [Ideal.matmul_constant_zero_apply, ← Equiv.sum_comp (contrEquiv1 dot_S8000x128_S128x2_S8000x2_1_0_0_1_n_n 128 rfl rfl).symm]
  refine Finset.sum_congr rfl fun k _ => ?_
  have hk := contrEquiv1_symm_val dot_S8000x128_S128x2_S8000x2_1_0_0_1_n_n 128 rfl rfl k
  have el : dot_S8000x128_S128x2_S8000x2_1_0_0_1_n_n.lhsIdx (ix2 p j) ((contrEquiv1 dot_S8000x128_S128x2_S8000x2_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S8000x128_S128x2_S8000x2_1_0_0_1_n_n.rhsIdx (ix2 p j) ((contrEquiv1 dot_S8000x128_S128x2_S8000x2_1_0_0_1_n_n 128 rfl rfl).symm k) = ix2 k j := funext fun a => Fin.ext (by
    match a with
    | ⟨0, _⟩ => exact (rhs_dot_0 _ _).trans hk
    | ⟨1, _⟩ => exact rhs_dot_1 _ _)
  rw [el, er]

/-- One entry of the first kernel's block: row p of the X block against row j of Wg, plus the bias. -/
theorem linear_block_at (x : Vec Ideal S8000x128 .f32) (w : Vec Ideal S2x128 .f32) (b : Vec Ideal S1x2 .f32) (p : Fin 8000) (j : Fin 2) :
    k0_pay1 (F := Ideal) x w b (ix2 p j) = (∑ k : Fin 128, x (ix2 p k) * w (ix2 j k)) + b (ix2 (0 : Fin 1) j) := by
  unfold k0_pay1
  rw [addf_apply, matmul_at, shapeCast_self, broadcast_b_at]
  refine congrArg (· + b (ix2 (0 : Fin 1) j)) (Finset.sum_congr rfl fun k _ => ?_)
  rw [transpose_w_at]
  rfl

/-! ## The second kernel: each row's two entries weigh the next two rows -/

/-- The row d places after local row p: inside the 4000-row block while p + d < 4000, else among the head rows. -/
def ahead (d : Nat) (v : Vec Ideal S4000x2 .f32) (h : Vec Ideal S8x2 .f32) (p : Fin 4000) (j : Fin 2) : Ideal .f32 :=
  if hp : p.val + d < 4000 then v (ix2 ⟨p.val + d, hp⟩ j) else h (ix2 ⟨(p.val + d - 4000) % 8, Nat.mod_lt _ (by decide)⟩ j)

/-- Column c of the block, spread over both columns, reads at (p, j) the block at (p, c): here c = 0 … -/
theorem column0_at (v : FVec Ideal S4000x2 .f32) (p : Fin 4000) (j : Fin 2) :
    broadcastTo S4000x2 (extractStridedSlice S4000x1 ![0, 0] v Facts₀.slices_S4000x2_o0_0_S4000x1) Facts₀.broadcasts_S4000x1_S4000x2 (ix2 p j)
      = v (ix2 p (0 : Fin 2)) := by
  refine (broadcastTo_apply _ Facts₀.broadcasts_S4000x1_S4000x2 (ix2 p j) (ix2 p (0 : Fin 1)) (fun a => match a with
    | ⟨0, _⟩ => by show p.val = if (4000 : Nat) = 1 then 0 else p.val; rw [if_neg (by decide)]
    | ⟨1, _⟩ => by show 0 = if (1 : Nat) = 1 then 0 else j.val; rw [if_pos rfl])).trans ?_
  exact extractStridedSlice_apply ![0, 0] v Facts₀.slices_S4000x2_o0_0_S4000x1 (ix2 p (0 : Fin 1)) (ix2 p (0 : Fin 2)) (fun a => match a with
    | ⟨0, _⟩ => by show p.val = 0 + p.val; omega
    | ⟨1, _⟩ => by show 0 = 0 + 0; omega)

/-- … and here c = 1. -/
theorem column1_at (v : FVec Ideal S4000x2 .f32) (p : Fin 4000) (j : Fin 2) :
    broadcastTo S4000x2 (extractStridedSlice S4000x1 ![0, 1] v Facts₀.slices_S4000x2_o0_1_S4000x1) Facts₀.broadcasts_S4000x1_S4000x2 (ix2 p j)
      = v (ix2 p (1 : Fin 2)) := by
  refine (broadcastTo_apply _ Facts₀.broadcasts_S4000x1_S4000x2 (ix2 p j) (ix2 p (0 : Fin 1)) (fun a => match a with
    | ⟨0, _⟩ => by show p.val = if (4000 : Nat) = 1 then 0 else p.val; rw [if_neg (by decide)]
    | ⟨1, _⟩ => by show 0 = if (1 : Nat) = 1 then 0 else j.val; rw [if_pos rfl])).trans ?_
  exact extractStridedSlice_apply ![0, 1] v Facts₀.slices_S4000x2_o0_1_S4000x1 (ix2 p (0 : Fin 1)) (ix2 p (1 : Fin 2)) (fun a => match a with
    | ⟨0, _⟩ => by show p.val = 0 + p.val; omega
    | ⟨1, _⟩ => by show 1 = 1 + 0; omega)

/-- The block moved up one row, its last row filled with the first head row, is the row one place ahead. -/
theorem shift1_at (v : FVec Ideal S4000x2 .f32) (h : FVec Ideal S8x2 .f32) (p : Fin 4000) (j : Fin 2) :
    concatenate S4000x2 0 [⟨S3999x2, extractStridedSlice S3999x2 ![1, 0] v Facts₀.slices_S4000x2_o1_0_S3999x2⟩,
        ⟨S1x2, extractStridedSlice S1x2 ![0, 0] h Facts₀.slices_S8x2_o0_0_S1x2⟩] Facts₀.concatenates_S3999x2_S1x2_S4000x2_d0 (ix2 p j)
      = ahead 1 v h p j := by
  unfold ahead
  by_cases hp : p.val + 1 < 4000
  · rw [dif_pos hp]
    have hp' : p.val < 3999 := by omega
    refine (concatenate_pair_apply_left (0 : Fin S4000x2.rank) _ _ Facts₀.concatenates_S3999x2_S1x2_S4000x2_d0 (ix2 p j) rfl
      (ix2 (⟨p.val, hp'⟩ : Fin 3999) j) (fun b => match b with
        | ⟨0, _⟩ => rfl
        | ⟨1, _⟩ => rfl)).trans ?_
    exact extractStridedSlice_apply ![1, 0] v Facts₀.slices_S4000x2_o1_0_S3999x2 (ix2 (⟨p.val, hp'⟩ : Fin 3999) j) (ix2 ⟨p.val + 1, hp⟩ j) (fun a => match a with
      | ⟨0, _⟩ => by show p.val + 1 = 1 + p.val; omega
      | ⟨1, _⟩ => by show j.val = 0 + j.val; omega)
  · rw [dif_neg hp]
    have hp' : p.val = 3999 := by have := p.isLt; omega
    refine (concatenate_pair_apply_right (0 : Fin S4000x2.rank) _ _ Facts₀.concatenates_S3999x2_S1x2_S4000x2_d0 (ix2 p j) rfl rfl
      (ix2 (0 : Fin 1) j) (fun b => match b with
        | ⟨0, _⟩ => fun hb => absurd rfl hb
        | ⟨1, _⟩ => fun _ => rfl) (by show 0 + 3999 = p.val; omega)).trans ?_
    exact extractStridedSlice_apply ![0, 0] h Facts₀.slices_S8x2_o0_0_S1x2 (ix2 (0 : Fin 1) j) (ix2 ⟨(p.val + 1 - 4000) % 8, Nat.mod_lt _ (by decide)⟩ j) (fun a => match a with
      | ⟨0, _⟩ => by show (p.val + 1 - 4000) % 8 = 0 + 0; omega
      | ⟨1, _⟩ => by show j.val = 0 + j.val; omega)

/-- The block moved up two rows, its last two rows filled with the first two head rows, is the row two places ahead. -/
theorem shift2_at (v : FVec Ideal S4000x2 .f32) (h : FVec Ideal S8x2 .f32) (p : Fin 4000) (j : Fin 2) :
    concatenate S4000x2 0 [⟨S3998x2, extractStridedSlice S3998x2 ![2, 0] v Facts₀.slices_S4000x2_o2_0_S3998x2⟩,
        ⟨S2x2, extractStridedSlice S2x2 ![0, 0] h Facts₀.slices_S8x2_o0_0_S2x2⟩] Facts₀.concatenates_S3998x2_S2x2_S4000x2_d0 (ix2 p j)
      = ahead 2 v h p j := by
  unfold ahead
  by_cases hp : p.val + 2 < 4000
  · rw [dif_pos hp]
    have hp' : p.val < 3998 := by omega
    refine (concatenate_pair_apply_left (0 : Fin S4000x2.rank) _ _ Facts₀.concatenates_S3998x2_S2x2_S4000x2_d0 (ix2 p j) rfl
      (ix2 (⟨p.val, hp'⟩ : Fin 3998) j) (fun b => match b with
        | ⟨0, _⟩ => rfl
        | ⟨1, _⟩ => rfl)).trans ?_
    exact extractStridedSlice_apply ![2, 0] v Facts₀.slices_S4000x2_o2_0_S3998x2 (ix2 (⟨p.val, hp'⟩ : Fin 3998) j) (ix2 ⟨p.val + 2, hp⟩ j) (fun a => match a with
      | ⟨0, _⟩ => by show p.val + 2 = 2 + p.val; omega
      | ⟨1, _⟩ => by show j.val = 0 + j.val; omega)
  · rw [dif_neg hp]
    have hlt : p.val - 3998 < 2 := by have := p.isLt; omega
    refine (concatenate_pair_apply_right (0 : Fin S4000x2.rank) _ _ Facts₀.concatenates_S3998x2_S2x2_S4000x2_d0 (ix2 p j) rfl rfl
      (ix2 (⟨p.val - 3998, hlt⟩ : Fin 2) j) (fun b => match b with
        | ⟨0, _⟩ => fun hb => absurd rfl hb
        | ⟨1, _⟩ => fun _ => rfl) (by show p.val - 3998 + 3998 = p.val; omega)).trans ?_
    exact extractStridedSlice_apply ![0, 0] h Facts₀.slices_S8x2_o0_0_S2x2 (ix2 (⟨p.val - 3998, hlt⟩ : Fin 2) j) (ix2 ⟨(p.val + 2 - 4000) % 8, Nat.mod_lt _ (by decide)⟩ j) (fun a => match a with
      | ⟨0, _⟩ => by show (p.val + 2 - 4000) % 8 = 0 + (p.val - 3998); have := p.isLt; omega
      | ⟨1, _⟩ => by show j.val = 0 + j.val; omega)

/-- One entry of the second kernel's block. -/
theorem combine_block_at (v : Vec Ideal S4000x2 .f32) (h : Vec Ideal S8x2 .f32) (p : Fin 4000) (j : Fin 2) :
    k1_pay1 (F := Ideal) v h (ix2 p j) = v (ix2 p 0) * ahead 1 v h p j + v (ix2 p 1) * ahead 2 v h p j := by
  unfold k1_pay1
  rw [addf_apply, mulf_apply, mulf_apply, shapeCast_self, shapeCast_self, column0_at, column1_at, shift1_at, shift2_at]

end Cert.KernelIdeal.Pay
end
-- ==== Proof.Bridge.lean ====
/-
  The idealized kernel's result, read off the run.

  The run ends with every unscoped buffer at the last boundary's contents. Read backwards: the result array is what the
  second region's write-backs leave, the circular two-row combination of the array it entered with; that array is what
  the first region's write-backs leave, the linear layer of X, Wg and the bias ROW; and the bias row is the host
  reshape of the bias vector, entry for entry. Together: the specification of the three argument arrays.
-/
import proofs.«171172_j23519240913301_1_alg».proof.Proof.Whole
import proofs.«171172_j23519240913301_1_alg».proof.Proof.LinValue
import proofs.«171172_j23519240913301_1_alg».proof.Proof.CombValue
import proofs.«171172_j23519240913301_1_alg».proof.Proof.Payloads
import proofs.«171172_j23519240913301_1_alg».proof.Proof.Spec
import Idealize.ShloMosaic.Lib.StableHlo.Run
import Idealize.ShloMosaic.Lib.Pipeline.Value
import Idealize.ShloMosaic.Lib.ValueIdx

set_option maxRecDepth 16384

noncomputable section

open scoped BigOperators

namespace Cert.KernelIdeal.Bridge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable (m : (ℓ : Loc nD τ sig) → Buf (Elt Ideal) ℓ)

/-- After the host reshape the bias row's buffer holds the bias vector, recast to one row. -/
theorem bias_row (c : Dev nD) :
    (Whole.V1 m c main_v0 : S1x2.Idx → Elt Ideal .f32)
      = shapeCast S1x2 (m ((c : Thread nD τ).loc main_arg2)) shapeCasts_S2_S1x2 := by
  dsimp only [Whole.V1, Whole.W1, Whole.W0, hostOps0]
  after_results
  rfl

/-- Entry j of the one row is entry j of the vector. -/
theorem bias_at (x : S2.Idx → Elt Ideal .f32) (j : Fin 2) :
    shapeCast S1x2 x shapeCasts_S2_S1x2 (ix2 (0 : Fin 1) j) = x (ix1 j) := by
  refine (shapeCast_addUnit_apply (![2] : Fin 1 → Nat) x shapeCasts_S2_S1x2 (ix2 (0 : Fin 1) j)).trans ?_
  congr 1
  funext a
  match a with
  | ⟨0, _⟩ => rfl

/-- The linear layer over the bias row is the linear layer over the bias vector. -/
theorem linRow_reshape (X : FVec Ideal S1000000x128 .f32) (Wg : FVec Ideal S2x128 .f32) (bg : FVec Ideal S2 .f32) :
    LinValue.linRow X Wg (shapeCast S1x2 bg shapeCasts_S2_S1x2) = Cert.ShiftSpec.lin X Wg bg := by
  funext i
  unfold LinValue.linRow Cert.ShiftSpec.lin Cert.ShiftSpec.linAt
  rw [bias_at]

/-- What the first region leaves in its output array: the linear layer of the arguments. -/
theorem mid_array (c : Dev nD) :
    Whole.V2 m c main_v1
      = Cert.ShiftSpec.lin (m ((c : Thread nD τ).loc main_arg0)) (m ((c : Thread nD τ).loc main_arg1)) (m ((c : Thread nD τ).loc main_arg2)) := by
  have h3 : Whole.V2 m c main_v1 = (Lin.dat (F := Ideal) (Whole.V1 m) c).arrAt 3 cfg0.N := Whole.W2_arr m c 3
  rw [h3, LinValue.final (Whole.V1 m) Pay.linear_block_at c, bias_row m c,
    show Whole.V1 m c main_arg0 = m ((c : Thread nD τ).loc main_arg0) from V1_of m c main_arg0 (by decide),
    show Whole.V1 m c main_arg1 = m ((c : Thread nD τ).loc main_arg1) from V1_of m c main_arg1 (by decide)]
  exact linRow_reshape _ _ _

/-- What the run leaves in the result array: the specification of the arguments. -/
theorem result_array (c : Dev nD) :
    Whole.W3 m c (Proc.devRef .tc main_v2)
      = Cert.ShiftSpec.result (m ((c : Thread nD τ).loc main_arg0)) (m ((c : Thread nD τ).loc main_arg1)) (m ((c : Thread nD τ).loc main_arg2)) := by
  rw [Whole.W3_out, CombValue.final (Whole.V2 m) Pay.ahead (fun _ _ _ _ _ => rfl) Pay.combine_block_at c, mid_array m c]
  rfl

/-- THE VALUE RUN: every weakly fair execution terminates, nothing faulting, with the result array at the specification of
    the arguments and the arguments as launched. -/
theorem run (ρ : Dev nD → PrngReg) :
    θ_run defs (onTc (τ := τ) (main (F := Ideal))) ⟨m, fun _ => 0, ρ⟩ (fun r => ∀ c : Dev nD,
      r.2.mem ((c.tc : Thread nD τ).loc main_v2)
          = Cert.ShiftSpec.result (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (Whole.mem_uc main_v2 (by decide))).trans (result_array m c),
     (h c _ (Whole.mem_uc main_arg0 (by decide))).trans (Whole.W3_main_arg0 m c),
     (h c _ (Whole.mem_uc main_arg1 (by decide))).trans (Whole.W3_main_arg1 m c),
     (h c _ (Whole.mem_uc main_arg2 (by decide))).trans (Whole.W3_main_arg2 m c)⟩) (Whole.run m ρ)

end Cert.KernelIdeal.Bridge

end
-- ==== Proof.RefIsSpec.lean ====
import proofs.«171172_j23519240913301_1_alg».proof.Proof.Gen.ReferenceIdeal.Read
import proofs.«171172_j23519240913301_1_alg».proof.Proof.Spec
noncomputable section
namespace Cert.RefBridge
open Idealize.ShloMosaic Idealize.ShloMosaic.ValueIdx

open Cert.ReferenceIdeal Cert.ReferenceIdeal.Gen Cert.ReferenceIdeal.Read Cert.ShiftSpec in
/-- The linear layer of the reference, read at row `r`, column `j`: the dot product of row `r` of the first
    argument with row `j` of the second (the transpose turns its columns back into rows), plus the bias at `j`. -/
theorem v4_at (x0 : (⟨S1000000x128, .f32⟩ : BufTy).Contents (Elt Ideal)) (x1 : (⟨S2x128, .f32⟩ : BufTy).Contents (Elt Ideal)) (x2 : (⟨S2, .f32⟩ : BufTy).Contents (Elt Ideal))
    (r : Fin 1000000) (j : Fin 2) :
    val_main_v4 (F := Ideal) x0 x1 x2 (ix2 r j) = linAt x0 x1 x2 r j := by
  rw [val_main_v4_apply, val_main_v1_apply, val_main_v3_apply, val_main_v2_apply, Ideal.addf_def]
  unfold linAt
  have e2 : idx_main_v2 (idx_main_v3 (ix2 r j)) = ix1 j := by
    funext a; match a with | ⟨0, _⟩ => rfl
  rw [e2]
  congr 1
  refine Finset.sum_congr rfl fun k _ => ?_
  rw [val_main_v0_apply]
  have el : lidx_main_v1 (ix2 r j) k = ix2 r k := by
    funext a; match a with | ⟨0, _⟩ => rfl | ⟨1, _⟩ => rfl
  have er : idx_main_v0 (ridx_main_v1 (ix2 r j) k) = ix2 j k := by
    funext a; match a with | ⟨0, _⟩ => rfl | ⟨1, _⟩ => rfl
  rw [el, er]

open Cert.ReferenceIdeal Cert.ReferenceIdeal.Gen Cert.ReferenceIdeal.Read Cert.ShiftSpec in
/-- The roll by one (rows 1 … 999999 followed by row 0), read at row `r`: the linear layer at the next row on the circle.
    Below row 999999 the entry comes from the first piece, at row `r` of it, which is row `1 + r` of the layer;
    row 999999 comes from the second piece, whose only row is row 0 of the layer. -/
theorem v6_at (x0 : (⟨S1000000x128, .f32⟩ : BufTy).Contents (Elt Ideal)) (x1 : (⟨S2x128, .f32⟩ : BufTy).Contents (Elt Ideal)) (x2 : (⟨S2, .f32⟩ : BufTy).Contents (Elt Ideal))
    (r : Fin 1000000) (j : Fin 2) :
    val_main_v6 (F := Ideal) x0 x1 x2 (ix2 r j) = val_main_v4 (F := Ideal) x0 x1 x2 (ix2 (fwd 1 r) j) := by
  unfold val_main_v6
  have hr : r.val < 1000000 := r.isLt
  by_cases h : r.val < 999999
  · rw [concatenate_pair_apply_left (t := S1000000x2) (s₁ := S999999x2) (s₂ := S1x2) (0 : Fin 2) _ _ concatenates_S999999x2_S1x2_S1000000x2_d0 (ix2 r j) rfl
      (ix2 (⟨r.val, h⟩ : Fin 999999) j) (fun b => by match b with | ⟨0, _⟩ => rfl | ⟨1, _⟩ => rfl)]
    rw [val_main_call0_v0_apply]
    congr 1
    funext a
    apply Fin.ext
    match a with
    | ⟨0, _⟩ => show 1 + r.val = (r.val + 1) % 1000000; omega
    | ⟨1, _⟩ => rfl
  · rw [concatenate_pair_apply_right (t := S1000000x2) (s₁ := S999999x2) (s₂ := S1x2) (0 : Fin 2) _ _ concatenates_S999999x2_S1x2_S1000000x2_d0 (ix2 r j) rfl rfl
      (ix2 (⟨0, Nat.one_pos⟩ : Fin 1) j)
      (fun b hb => by match b with | ⟨0, _⟩ => exact absurd rfl hb | ⟨1, _⟩ => rfl)
      (by show 0 + 999999 = r.val; omega)]
    rw [val_main_call0_v1_apply]
    congr 1
    funext a
    apply Fin.ext
    match a with
    | ⟨0, _⟩ => show 0 = (r.val + 1) % 1000000; omega
    | ⟨1, _⟩ => rfl

open Cert.ReferenceIdeal Cert.ReferenceIdeal.Gen Cert.ReferenceIdeal.Read Cert.ShiftSpec in
/-- The roll by two (rows 2 … 999999 followed by rows 0 and 1), read at row `r`: the linear layer two rows on.
    Below row 999998 the entry comes from the first piece, at row `r` of it, which is row `2 + r` of the layer;
    rows 999998 and 999999 come from the second piece, at rows 0 and 1, which are rows 0 and 1 of the layer. -/
theorem v10_at (x0 : (⟨S1000000x128, .f32⟩ : BufTy).Contents (Elt Ideal)) (x1 : (⟨S2x128, .f32⟩ : BufTy).Contents (Elt Ideal)) (x2 : (⟨S2, .f32⟩ : BufTy).Contents (Elt Ideal))
    (r : Fin 1000000) (j : Fin 2) :
    val_main_v10 (F := Ideal) x0 x1 x2 (ix2 r j) = val_main_v4 (F := Ideal) x0 x1 x2 (ix2 (fwd 2 r) j) := by
  unfold val_main_v10
  have hr : r.val < 1000000 := r.isLt
  by_cases h : r.val < 999998
  · rw [concatenate_pair_apply_left (t := S1000000x2) (s₁ := S999998x2) (s₂ := S2x2) (0 : Fin 2) _ _ concatenates_S999998x2_S2x2_S1000000x2_d0 (ix2 r j) rfl
      (ix2 (⟨r.val, h⟩ : Fin 999998) j) (fun b => by match b with | ⟨0, _⟩ => rfl | ⟨1, _⟩ => rfl)]
    rw [val_main_call1_v0_apply]
    congr 1
    funext a
    apply Fin.ext
    match a with
    | ⟨0, _⟩ => show 2 + r.val = (r.val + 2) % 1000000; omega
    | ⟨1, _⟩ => rfl
  · rw [concatenate_pair_apply_right (t := S1000000x2) (s₁ := S999998x2) (s₂ := S2x2) (0 : Fin 2) _ _ concatenates_S999998x2_S2x2_S1000000x2_d0 (ix2 r j) rfl rfl
      (ix2 (⟨r.val - 999998, by omega⟩ : Fin 2) j)
      (fun b hb => by match b with | ⟨0, _⟩ => exact absurd rfl hb | ⟨1, _⟩ => rfl)
      (by show r.val - 999998 + 999998 = r.val; omega)]
    rw [val_main_call1_v1_apply]
    congr 1
    funext a
    apply Fin.ext
    match a with
    | ⟨0, _⟩ => show r.val - 999998 = (r.val + 2) % 1000000; omega
    | ⟨1, _⟩ => rfl

/-- The reference's last stage, at the ideal instance, is the specification. -/
theorem ref_is_result (x0 : (⟨Cert.ReferenceIdeal.S1000000x128, .f32⟩ : BufTy).Contents (Elt Ideal)) (x1 : (⟨Cert.ReferenceIdeal.S2x128, .f32⟩ : BufTy).Contents (Elt Ideal)) (x2 : (⟨Cert.ReferenceIdeal.S2, .f32⟩ : BufTy).Contents (Elt Ideal)) :
    Cert.ReferenceIdeal.Read.val_main_v13 (F := Ideal) x0 x1 x2 = Cert.ShiftSpec.result x0 x1 x2 := by
  funext i
  obtain ⟨r, j, rfl⟩ : ∃ (r : Fin 1000000) (j : Fin 2), i = ix2 r j := ⟨i 0, i 1, eq_ix2 i⟩
  open Cert.ReferenceIdeal Cert.ReferenceIdeal.Gen Cert.ReferenceIdeal.Read Cert.ShiftSpec in
  rw [val_main_v13_apply, val_main_v8_apply, val_main_v12_apply, val_main_v7_apply, val_main_v11_apply,
    val_main_v5_apply, val_main_v9_apply, v6_at, v10_at, Ideal.addf_def, Ideal.mulf_def, Ideal.mulf_def]
  have e5 : Cert.ReferenceIdeal.Read.idx_main_v5 (Cert.ReferenceIdeal.Read.idx_main_v7 (ix2 r j)) = ix2 r (0 : Fin 2) := by
    funext a; match a with | ⟨0, _⟩ => rfl | ⟨1, _⟩ => rfl
  have e9 : Cert.ReferenceIdeal.Read.idx_main_v9 (Cert.ReferenceIdeal.Read.idx_main_v11 (ix2 r j)) = ix2 r (1 : Fin 2) := by
    funext a; match a with | ⟨0, _⟩ => rfl | ⟨1, _⟩ => rfl
  rw [e5, e9, v4_at, v4_at, v4_at, v4_at]
  rfl

end Cert.RefBridge
end
-- ==== Proof.lean ====
/-
  The certificate's claim, assembled.

  Both programs compute, at the ideal instance, one function of the three argument arrays X [1000000, 128],
  Wg [2, 128] and bg [2]: with V[r, j] = (the sum over k of X[r, k] * Wg[j, k]) + bg[j], the result is
  out[r, j] = V[r, 0] * V[(r + 1) mod 1000000, j] + V[r, 1] * V[(r + 2) mod 1000000, j]  (Proof/Spec.lean).
  The kernel does it in two launches: a matrix product per block of 8000 rows (a change of float format is the
  identity at the ideal instance, and a product accumulated into zero is the plain sum), then, per block of 4000 rows,
  each row against the next two — the last two rows of a block reach into the first rows of the next block on the
  circle, which the launch stages through a second window on the same array. The reference does it with one matrix
  product, two slices joined into each rolled copy, and elementwise arithmetic. The two sides are the same sums and
  products in the same order, so no law of the extended reals beyond reading both at an index is used, and the
  precondition (finite inputs) is never opened.

  The frames: the kernel program runs to the end with its arguments untouched, at the word-level instance and at the
  ideal one, by one run of its three items (Proof/Whole.lean, and its word-level twin); the reference's frame is its
  run with the result dropped. Nothing was rewritten by the idealization, so there is nothing to preserve.
-/
import proofs.«171172_j23519240913301_1_alg».proof.Defs
import proofs.«171172_j23519240913301_1_alg».proof.Proof.Gen.Kernel
import proofs.«171172_j23519240913301_1_alg».proof.Proof.Gen.Kernel.Skeleton
import proofs.«171172_j23519240913301_1_alg».proof.Proof.Gen.Kernel.Launch
import proofs.«171172_j23519240913301_1_alg».proof.Proof.Gen.Kernel.Regions
import proofs.«171172_j23519240913301_1_alg».proof.Proof.Gen.Kernel.Points
import proofs.«171172_j23519240913301_1_alg».proof.Proof.Gen.KernelIdeal
import proofs.«171172_j23519240913301_1_alg».proof.Proof.Gen.KernelIdeal.Skeleton
import proofs.«171172_j23519240913301_1_alg».proof.Proof.Gen.KernelIdeal.Launch
import proofs.«171172_j23519240913301_1_alg».proof.Proof.Gen.KernelIdeal.Regions
import proofs.«171172_j23519240913301_1_alg».proof.Proof.Gen.KernelIdeal.Points
import proofs.«171172_j23519240913301_1_alg».proof.Proof.Gen.ReferenceIdeal
import proofs.«171172_j23519240913301_1_alg».proof.Proof.Gen.ReferenceIdeal.Run
import proofs.«171172_j23519240913301_1_alg».proof.Proof.Gen.ReferenceIdeal.Read
import proofs.«171172_j23519240913301_1_alg».proof.Proof.Gen.Pre_finite_inputs
import proofs.«171172_j23519240913301_1_alg».proof.Proof.KWhole
import proofs.«171172_j23519240913301_1_alg».proof.Proof.Bridge
import proofs.«171172_j23519240913301_1_alg».proof.Proof.RefIsSpec
import Idealize.ShloMosaic.Adequacy
import Idealize.ShloMosaic.Init

noncomputable section

namespace Cert.Proof

open Idealize.ShloMosaic Idealize.SL.Sem

/-- The kernel program, word level: it runs to the end and its arguments end as launched. -/
theorem frame_k : Cert.frame_Kernel := fun m ρ _ => Cert.Kernel.Whole.frame m ρ

/-- The kernel program, ideal instance: the same. -/
theorem frame_ki : Cert.frame_KernelIdeal := fun m ρ _ => Cert.KernelIdeal.Whole.frame m ρ

/-- The reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the ideal instance the kernel's result array ends at the specification of its arguments, and the reference's at the
    same function of arguments that agree. -/
theorem algebraic : Cert.algebraic_KernelIdeal_ReferenceIdeal := by
  intro m ρ m' ρ' _ hagree
  refine ⟨_, Cert.KernelIdeal.Bridge.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.RefBridge.ref_is_result, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
